-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x6x64x128x128 : Shape := ⟨5, ![4, 6, 64, 128, 128]⟩
abbrev S_ : Shape := ⟨0, ![]⟩

class Facts : Prop where
  bcast_S_S4x6x64x128x128 : S_.BroadcastsInDim S4x6x64x128x128 (![] : Fin 0 → Fin S4x6x64x128x128.rank)
  reducesTo_S4x6x64x128x128_S_d0_1_2_3_4 : S4x6x64x128x128.ReducesTo [0, 1, 2, 3, 4] S_
  h_S_ : 0 < S_.numel

variable [Facts]

def fn {F : FTy → Type} [FloatOps F] (main_arg0 : FVec F S4x6x64x128x128 .f32) : IVec S_ 1 :=
  let main_v0 : FVec F S4x6x64x128x128 .f32 := Host.absf main_arg0
  let main_cst : FVec F S_ .f32 := constant S_ .f32 0x7F800000#32
  let main_v1 : FVec F S4x6x64x128x128 .f32 := broadcastInDim S4x6x64x128x128 ![] bcast_S_S4x6x64x128x128 main_cst
  let main_v2 : IVec S4x6x64x128x128 1 := cmpf .olt main_v0 main_v1
  let main_c : IVec S_ 1 := constantI S_ 1 1#1
  let main_v3 : IVec S_ 1 := (fun x v => Host.reduce IntOp.andi x v reducesTo_S4x6x64x128x128_S_d0_1_2_3_4 h_S_) main_v2 main_c
  main_v3
-- ==== Kernel.lean ====
abbrev S4x6x64x128x128 : Shape := ⟨5, ![4, 6, 64, 128, 128]⟩
abbrev S4x1x64x128x128 : Shape := ⟨5, ![4, 1, 64, 128, 128]⟩
abbrev S4x64x128x128 : Shape := ⟨4, ![4, 64, 128, 128]⟩
abbrev S4x64x2x128 : Shape := ⟨4, ![4, 64, 2, 128]⟩
abbrev S4x64x128x2 : Shape := ⟨4, ![4, 64, 128, 2]⟩
abbrev S4x1x64x2x128 : Shape := ⟨5, ![4, 1, 64, 2, 128]⟩
abbrev S4x6x64x2x128 : Shape := ⟨5, ![4, 6, 64, 2, 128]⟩
abbrev S4x1x64x128x2 : Shape := ⟨5, ![4, 1, 64, 128, 2]⟩
abbrev S4x6x64x128x2 : Shape := ⟨5, ![4, 6, 64, 128, 2]⟩
abbrev S4x6x64x2x1 : Shape := ⟨5, ![4, 6, 64, 2, 1]⟩
abbrev S1x4x1x6x1x64x1x2x1x1 : Shape := ⟨10, ![1, 4, 1, 6, 1, 64, 1, 2, 1, 1]⟩
abbrev S1x4x1x6x1x64x1x2x2x1 : Shape := ⟨10, ![1, 4, 1, 6, 1, 64, 1, 2, 2, 1]⟩
abbrev S4x6x64x2x2 : Shape := ⟨5, ![4, 6, 64, 2, 2]⟩
abbrev S4x6x64x132x132 : Shape := ⟨5, ![4, 6, 64, 132, 132]⟩
abbrev S1x1x32x128x128 : Shape := ⟨5, ![1, 1, 32, 128, 128]⟩
abbrev S1x1x32x2x128 : Shape := ⟨5, ![1, 1, 32, 2, 128]⟩
abbrev S1x1x32x128x2 : Shape := ⟨5, ![1, 1, 32, 128, 2]⟩
abbrev S1x1x32x2x2 : Shape := ⟨5, ![1, 1, 32, 2, 2]⟩
abbrev S1x1x32x132x132 : Shape := ⟨5, ![1, 1, 32, 132, 132]⟩
abbrev S32x2x128 : Shape := ⟨3, ![32, 2, 128]⟩
abbrev S32x128x128 : Shape := ⟨3, ![32, 128, 128]⟩
abbrev S32x132x128 : Shape := ⟨3, ![32, 132, 128]⟩
abbrev S32x2x2 : Shape := ⟨3, ![32, 2, 2]⟩
abbrev S32x128x2 : Shape := ⟨3, ![32, 128, 2]⟩
abbrev S32x132x2 : Shape := ⟨3, ![32, 132, 2]⟩
abbrev S32x132x132 : Shape := ⟨3, ![32, 132, 132]⟩

abbrev nBuf : Space → Nat
  | .hbm => 98
  | .vmem => 20
  | .smem => 0
  | _ => 0

abbrev bufTy : (tb : Table) → Fin (tcTables nBuf tb) → BufTy
  | .hbm, ⟨0, _⟩ => ⟨S4x6x64x128x128, .f32⟩
  | .hbm, ⟨1, _⟩ => ⟨S4x1x64x128x128, .f32⟩
  | .hbm, ⟨2, _⟩ => ⟨S4x64x128x128, .f32⟩
  | .hbm, ⟨3, _⟩ => ⟨S4x1x64x128x128, .f32⟩
  | .hbm, ⟨4, _⟩ => ⟨S4x64x128x128, .f32⟩
  | .hbm, ⟨5, _⟩ => ⟨S4x1x64x128x128, .f32⟩
  | .hbm, ⟨6, _⟩ => ⟨S4x64x128x128, .f32⟩
  | .hbm, ⟨7, _⟩ => ⟨S4x1x64x128x128, .f32⟩
  | .hbm, ⟨8, _⟩ => ⟨S4x64x128x128, .f32⟩
  | .hbm, ⟨9, _⟩ => ⟨S4x1x64x128x128, .f32⟩
  | .hbm, ⟨10, _⟩ => ⟨S4x64x128x128, .f32⟩
  | .hbm, ⟨11, _⟩ => ⟨S4x1x64x128x128, .f32⟩
  | .hbm, ⟨12, _⟩ => ⟨S4x64x128x128, .f32⟩
  | .hbm, ⟨13, _⟩ => ⟨S4x64x2x128, .f32⟩
  | .hbm, ⟨14, _⟩ => ⟨S4x64x2x128, .f32⟩
  | .hbm, ⟨15, _⟩ => ⟨S4x64x2x128, .f32⟩
  | .hbm, ⟨16, _⟩ => ⟨S4x64x2x128, .f32⟩
  | .hbm, ⟨17, _⟩ => ⟨S4x64x128x2, .f32⟩
  | .hbm, ⟨18, _⟩ => ⟨S4x64x2x128, .f32⟩
  | .hbm, ⟨19, _⟩ => ⟨S4x64x128x2, .f32⟩
  | .hbm, ⟨20, _⟩ => ⟨S4x64x2x128, .f32⟩
  | .hbm, ⟨21, _⟩ => ⟨S4x64x2x128, .f32⟩
  | .hbm, ⟨22, _⟩ => ⟨S4x64x2x128, .f32⟩
  | .hbm, ⟨23, _⟩ => ⟨S4x64x2x128, .f32⟩
  | .hbm, ⟨24, _⟩ => ⟨S4x1x64x2x128, .f32⟩
  | .hbm, ⟨25, _⟩ => ⟨S4x1x64x2x128, .f32⟩
  | .hbm, ⟨26, _⟩ => ⟨S4x1x64x2x128, .f32⟩
  | .hbm, ⟨27, _⟩ => ⟨S4x1x64x2x128, .f32⟩
  | .hbm, ⟨28, _⟩ => ⟨S4x1x64x2x128, .f32⟩
  | .hbm, ⟨29, _⟩ => ⟨S4x1x64x2x128, .f32⟩
  | .hbm, ⟨30, _⟩ => ⟨S4x6x64x2x128, .f32⟩
  | .hbm, ⟨31, _⟩ => ⟨S4x64x2x128, .f32⟩
  | .hbm, ⟨32, _⟩ => ⟨S4x64x2x128, .f32⟩
  | .hbm, ⟨33, _⟩ => ⟨S4x64x2x128, .f32⟩
  | .hbm, ⟨34, _⟩ => ⟨S4x64x2x128, .f32⟩
  | .hbm, ⟨35, _⟩ => ⟨S4x64x2x128, .f32⟩
  | .hbm, ⟨36, _⟩ => ⟨S4x64x128x2, .f32⟩
  | .hbm, ⟨37, _⟩ => ⟨S4x64x2x128, .f32⟩
  | .hbm, ⟨38, _⟩ => ⟨S4x64x2x128, .f32⟩
  | .hbm, ⟨39, _⟩ => ⟨S4x64x128x2, .f32⟩
  | .hbm, ⟨40, _⟩ => ⟨S4x64x2x128, .f32⟩
  | .hbm, ⟨41, _⟩ => ⟨S4x64x2x128, .f32⟩
  | .hbm, ⟨42, _⟩ => ⟨S4x1x64x2x128, .f32⟩
  | .hbm, ⟨43, _⟩ => ⟨S4x1x64x2x128, .f32⟩
  | .hbm, ⟨44, _⟩ => ⟨S4x1x64x2x128, .f32⟩
  | .hbm, ⟨45, _⟩ => ⟨S4x1x64x2x128, .f32⟩
  | .hbm, ⟨46, _⟩ => ⟨S4x1x64x2x128, .f32⟩
  | .hbm, ⟨47, _⟩ => ⟨S4x1x64x2x128, .f32⟩
  | .hbm, ⟨48, _⟩ => ⟨S4x6x64x2x128, .f32⟩
  | .hbm, ⟨49, _⟩ => ⟨S4x64x128x2, .f32⟩
  | .hbm, ⟨50, _⟩ => ⟨S4x64x2x128, .f32⟩
  | .hbm, ⟨51, _⟩ => ⟨S4x64x128x2, .f32⟩
  | .hbm, ⟨52, _⟩ => ⟨S4x64x128x2, .f32⟩
  | .hbm, ⟨53, _⟩ => ⟨S4x64x128x2, .f32⟩
  | .hbm, ⟨54, _⟩ => ⟨S4x64x128x2, .f32⟩
  | .hbm, ⟨55, _⟩ => ⟨S4x64x128x2, .f32⟩
  | .hbm, ⟨56, _⟩ => ⟨S4x64x2x128, .f32⟩
  | .hbm, ⟨57, _⟩ => ⟨S4x64x128x2, .f32⟩
  | .hbm, ⟨58, _⟩ => ⟨S4x1x64x128x2, .f32⟩
  | .hbm, ⟨59, _⟩ => ⟨S4x1x64x128x2, .f32⟩
  | .hbm, ⟨60, _⟩ => ⟨S4x1x64x128x2, .f32⟩
  | .hbm, ⟨61, _⟩ => ⟨S4x1x64x128x2, .f32⟩
  | .hbm, ⟨62, _⟩ => ⟨S4x1x64x128x2, .f32⟩
  | .hbm, ⟨63, _⟩ => ⟨S4x1x64x128x2, .f32⟩
  | .hbm, ⟨64, _⟩ => ⟨S4x6x64x128x2, .f32⟩
  | .hbm, ⟨65, _⟩ => ⟨S4x64x128x2, .f32⟩
  | .hbm, ⟨66, _⟩ => ⟨S4x64x2x128, .f32⟩
  | .hbm, ⟨67, _⟩ => ⟨S4x64x128x2, .f32⟩
  | .hbm, ⟨68, _⟩ => ⟨S4x64x128x2, .f32⟩
  | .hbm, ⟨69, _⟩ => ⟨S4x64x128x2, .f32⟩
  | .hbm, ⟨70, _⟩ => ⟨S4x64x128x2, .f32⟩
  | .hbm, ⟨71, _⟩ => ⟨S4x64x2x128, .f32⟩
  | .hbm, ⟨72, _⟩ => ⟨S4x64x128x2, .f32⟩
  | .hbm, ⟨73, _⟩ => ⟨S4x64x128x2, .f32⟩
  | .hbm, ⟨74, _⟩ => ⟨S4x1x64x128x2, .f32⟩
  | .hbm, ⟨75, _⟩ => ⟨S4x1x64x128x2, .f32⟩
  | .hbm, ⟨76, _⟩ => ⟨S4x1x64x128x2, .f32⟩
  | .hbm, ⟨77, _⟩ => ⟨S4x1x64x128x2, .f32⟩
  | .hbm, ⟨78, _⟩ => ⟨S4x1x64x128x2, .f32⟩
  | .hbm, ⟨79, _⟩ => ⟨S4x1x64x128x2, .f32⟩
  | .hbm, ⟨80, _⟩ => ⟨S4x6x64x128x2, .f32⟩
  | .hbm, ⟨81, _⟩ => ⟨S4x6x64x2x1, .f32⟩
  | .hbm, ⟨82, _⟩ => ⟨S1x4x1x6x1x64x1x2x1x1, .f32⟩
  | .hbm, ⟨83, _⟩ => ⟨S1x4x1x6x1x64x1x2x2x1, .f32⟩
  | .hbm, ⟨84, _⟩ => ⟨S4x6x64x2x2, .f32⟩
  | .hbm, ⟨85, _⟩ => ⟨S4x6x64x2x1, .f32⟩
  | .hbm, ⟨86, _⟩ => ⟨S1x4x1x6x1x64x1x2x1x1, .f32⟩
  | .hbm, ⟨87, _⟩ => ⟨S1x4x1x6x1x64x1x2x2x1, .f32⟩
  | .hbm, ⟨88, _⟩ => ⟨S4x6x64x2x2, .f32⟩
  | .hbm, ⟨89, _⟩ => ⟨S4x6x64x2x1, .f32⟩
  | .hbm, ⟨90, _⟩ => ⟨S1x4x1x6x1x64x1x2x1x1, .f32⟩
  | .hbm, ⟨91, _⟩ => ⟨S1x4x1x6x1x64x1x2x2x1, .f32⟩
  | .hbm, ⟨92, _⟩ => ⟨S4x6x64x2x2, .f32⟩
  | .hbm, ⟨93, _⟩ => ⟨S4x6x64x2x1, .f32⟩
  | .hbm, ⟨94, _⟩ => ⟨S1x4x1x6x1x64x1x2x1x1, .f32⟩
  | .hbm, ⟨95, _⟩ => ⟨S1x4x1x6x1x64x1x2x2x1, .f32⟩
  | .hbm, ⟨96, _⟩ => ⟨S4x6x64x2x2, .f32⟩
  | .hbm, ⟨97, _⟩ => ⟨S4x6x64x132x132, .f32⟩
  | .local _ .vmem, ⟨0, _⟩ => ⟨S1x1x32x128x128, .f32⟩
  | .local _ .vmem, ⟨1, _⟩ => ⟨S1x1x32x128x128, .f32⟩
  | .local _ .vmem, ⟨2, _⟩ => ⟨S1x1x32x2x128, .f32⟩
  | .local _ .vmem, ⟨3, _⟩ => ⟨S1x1x32x2x128, .f32⟩
  | .local _ .vmem, ⟨4, _⟩ => ⟨S1x1x32x2x128, .f32⟩
  | .local _ .vmem, ⟨5, _⟩ => ⟨S1x1x32x2x128, .f32⟩
  | .local _ .vmem, ⟨6, _⟩ => ⟨S1x1x32x128x2, .f32⟩
  | .local _ .vmem, ⟨7, _⟩ => ⟨S1x1x32x128x2, .f32⟩
  | .local _ .vmem, ⟨8, _⟩ => ⟨S1x1x32x128x2, .f32⟩
  | .local _ .vmem, ⟨9, _⟩ => ⟨S1x1x32x128x2, .f32⟩
  | .local _ .vmem, ⟨10, _⟩ => ⟨S1x1x32x2x2, .f32⟩
  | .local _ .vmem, ⟨11, _⟩ => ⟨S1x1x32x2x2, .f32⟩
  | .local _ .vmem, ⟨12, _⟩ => ⟨S1x1x32x2x2, .f32⟩
  | .local _ .vmem, ⟨13, _⟩ => ⟨S1x1x32x2x2, .f32⟩
  | .local _ .vmem, ⟨14, _⟩ => ⟨S1x1x32x2x2, .f32⟩
  | .local _ .vmem, ⟨15, _⟩ => ⟨S1x1x32x2x2, .f32⟩
  | .local _ .vmem, ⟨16, _⟩ => ⟨S1x1x32x2x2, .f32⟩
  | .local _ .vmem, ⟨17, _⟩ => ⟨S1x1x32x2x2, .f32⟩
  | .local _ .vmem, ⟨18, _⟩ => ⟨S1x1x32x132x132, .f32⟩
  | .local _ .vmem, ⟨19, _⟩ => ⟨S1x1x32x132x132, .f32⟩
  | _, _ => ⟨S4x6x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 6, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x32x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x32x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x32x128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x32x2x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x32x2x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x2x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x32x2x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x132x132 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

class Facts₀ : Prop where
  slices_S4x6x64x128x128_S4x1x64x128x128_0_0_0_0_0 : S4x6x64x128x128.Slices ![0, 0, 0, 0, 0] S4x1x64x128x128
  shapeCasts_S4x1x64x128x128_S4x64x128x128 : S4x1x64x128x128.ShapeCasts S4x64x128x128
  slices_S4x6x64x128x128_S4x1x64x128x128_0_1_0_0_0 : S4x6x64x128x128.Slices ![0, 1, 0, 0, 0] S4x1x64x128x128
  slices_S4x6x64x128x128_S4x1x64x128x128_0_2_0_0_0 : S4x6x64x128x128.Slices ![0, 2, 0, 0, 0] S4x1x64x128x128
  slices_S4x6x64x128x128_S4x1x64x128x128_0_3_0_0_0 : S4x6x64x128x128.Slices ![0, 3, 0, 0, 0] S4x1x64x128x128
  slices_S4x6x64x128x128_S4x1x64x128x128_0_4_0_0_0 : S4x6x64x128x128.Slices ![0, 4, 0, 0, 0] S4x1x64x128x128
  slices_S4x6x64x128x128_S4x1x64x128x128_0_5_0_0_0 : S4x6x64x128x128.Slices ![0, 5, 0, 0, 0] S4x1x64x128x128
  slices_S4x64x128x128_S4x64x2x128_0_0_0_0 : S4x64x128x128.Slices ![0, 0, 0, 0] S4x64x2x128
  slices_S4x64x128x128_S4x64x2x128_0_0_126_0 : S4x64x128x128.Slices ![0, 0, 126, 0] S4x64x2x128
  slices_S4x64x128x128_S4x64x128x2_0_0_0_0 : S4x64x128x128.Slices ![0, 0, 0, 0] S4x64x128x2
  transposes_S4x64x128x2_S4x64x2x128_0_1_3_2 : S4x64x128x2.Transposes [0, 1, 3, 2] S4x64x2x128
  slices_S4x64x128x128_S4x64x128x2_0_0_0_126 : S4x64x128x128.Slices ![0, 0, 0, 126] S4x64x128x2
  bcast_S4x64x2x128_S4x1x64x2x128_0_2_3_4 : S4x64x2x128.BroadcastsInDim S4x1x64x2x128 (![0, 2, 3, 4] : Fin 4 → Fin S4x1x64x2x128.rank)
  concatenates_S4x1x64x2x128_S4x1x64x2x128_S4x1x64x2x128_S4x1x64x2x128_S4x1x64x2x128_S4x1x64x2x128_S4x6x64x2x128_d1 : Shape.Concatenates [S4x1x64x2x128, S4x1x64x2x128, S4x1x64x2x128, S4x1x64x2x128, S4x1x64x2x128, S4x1x64x2x128] S4x6x64x2x128 1
  transposes_S4x64x2x128_S4x64x128x2_0_1_3_2 : S4x64x2x128.Transposes [0, 1, 3, 2] S4x64x128x2
  bcast_S4x64x128x2_S4x1x64x128x2_0_2_3_4 : S4x64x128x2.BroadcastsInDim S4x1x64x128x2 (![0, 2, 3, 4] : Fin 4 → Fin S4x1x64x128x2.rank)
  concatenates_S4x1x64x128x2_S4x1x64x128x2_S4x1x64x128x2_S4x1x64x128x2_S4x1x64x128x2_S4x1x64x128x2_S4x6x64x128x2_d1 : Shape.Concatenates [S4x1x64x128x2, S4x1x64x128x2, S4x1x64x128x2, S4x1x64x128x2, S4x1x64x128x2, S4x1x64x128x2] S4x6x64x128x2 1
  slices_S4x6x64x2x128_S4x6x64x2x1_0_0_0_0_0 : S4x6x64x2x128.Slices ![0, 0, 0, 0, 0] S4x6x64x2x1
  shapeCasts_S4x6x64x2x1_S1x4x1x6x1x64x1x2x1x1 : S4x6x64x2x1.ShapeCasts S1x4x1x6x1x64x1x2x1x1
  bcast_S1x4x1x6x1x64x1x2x1x1_S1x4x1x6x1x64x1x2x2x1_0_1_2_3_4_5_6_7_8_9 : S1x4x1x6x1x64x1x2x1x1.BroadcastsInDim S1x4x1x6x1x64x1x2x2x1 (![0, 1, 2, 3, 4, 5, 6, 7, 8, 9] : Fin 10 → Fin S1x4x1x6x1x64x1x2x2x1.rank)
  shapeCasts_S1x4x1x6x1x64x1x2x2x1_S4x6x64x2x2 : S1x4x1x6x1x64x1x2x2x1.ShapeCasts S4x6x64x2x2
  slices_S4x6x64x2x128_S4x6x64x2x1_0_0_0_0_127 : S4x6x64x2x128.Slices ![0, 0, 0, 0, 127] S4x6x64x2x1
  inb_S1x1x32x2x128_S1x1x32x2x128_0_0_0_0_0 : ∀ a, (![0, 0, 0, 0, 0] : Fin 5 → Nat) a + S1x1x32x2x128.size a ≤ S1x1x32x2x128.size a
  h_S1x1x32x2x128 : 0 < S1x1x32x2x128.numel
  shapeCasts_S1x1x32x2x128_S32x2x128 : S1x1x32x2x128.ShapeCasts S32x2x128
  inb_S1x1x32x128x128_S1x1x32x128x128_0_0_0_0_0 : ∀ a, (![0, 0, 0, 0, 0] : Fin 5 → Nat) a + S1x1x32x128x128.size a ≤ S1x1x32x128x128.size a
  h_S1x1x32x128x128 : 0 < S1x1x32x128x128.numel
  shapeCasts_S1x1x32x128x128_S32x128x128 : S1x1x32x128x128.ShapeCasts S32x128x128
  concatenates_S32x2x128_S32x128x128_S32x2x128_S32x132x128_d1 : Shape.Concatenates [S32x2x128, S32x128x128, S32x2x128] S32x132x128 1
  inb_S1x1x32x2x2_S1x1x32x2x2_0_0_0_0_0 : ∀ a, (![0, 0, 0, 0, 0] : Fin 5 → Nat) a + S1x1x32x2x2.size a ≤ S1x1x32x2x2.size a
  h_S1x1x32x2x2 : 0 < S1x1x32x2x2.numel
  shapeCasts_S1x1x32x2x2_S32x2x2 : S1x1x32x2x2.ShapeCasts S32x2x2
  inb_S1x1x32x128x2_S1x1x32x128x2_0_0_0_0_0 : ∀ a, (![0, 0, 0, 0, 0] : Fin 5 → Nat) a + S1x1x32x128x2.size a ≤ S1x1x32x128x2.size a
  h_S1x1x32x128x2 : 0 < S1x1x32x128x2.numel
  shapeCasts_S1x1x32x128x2_S32x128x2 : S1x1x32x128x2.ShapeCasts S32x128x2
  concatenates_S32x2x2_S32x128x2_S32x2x2_S32x132x2_d1 : Shape.Concatenates [S32x2x2, S32x128x2, S32x2x2] S32x132x2 1
  concatenates_S32x132x2_S32x132x128_S32x132x2_S32x132x132_d2 : Shape.Concatenates [S32x132x2, S32x132x128, S32x132x2] S32x132x132 2
  inb_S1x1x32x132x132_S1x1x32x132x132_0_0_0_0_0 : ∀ a, (![0, 0, 0, 0, 0] : Fin 5 → Nat) a + S1x1x32x132x132.size a ≤ S1x1x32x132x132.size a
  h_S1x1x32x132x132 : 0 < S1x1x32x132x132.numel
  shapeCasts_S1x1x32x132x132_S32x132x132 : S1x1x32x132x132.ShapeCasts S32x132x132
  shapeCasts_S32x132x132_S1x1x32x132x132 : S32x132x132.ShapeCasts S1x1x32x132x132
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x128x128.size a ≤ S4x6x64x128x128.size a
  hwx0_0 : ∀ i : grid0.Coords, EltTy.bits .f32 = 32 ∨ (Rect.block (s := S4x6x64x128x128) S1x1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x2x128.size a ≤ S4x6x64x2x128.size a
  hwx0_1 : ∀ i : grid0.Coords, EltTy.bits .f32 = 32 ∨ (Rect.block (s := S4x6x64x2x128) S1x1x32x2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x2x128.size a ≤ S4x6x64x2x128.size a
  hwx0_2 : ∀ i : grid0.Coords, EltTy.bits .f32 = 32 ∨ (Rect.block (s := S4x6x64x2x128) S1x1x32x2x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32x128x2.size a ≤ S4x6x64x128x2.size a
  hwx0_3 : ∀ i : grid0.Coords, EltTy.bits .f32 = 32 ∨ (Rect.block (s := S4x6x64x128x2) S1x1x32x128x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32x128x2.size a ≤ S4x6x64x128x2.size a
  hwx0_4 : ∀ i : grid0.Coords, EltTy.bits .f32 = 32 ∨ (Rect.block (s := S4x6x64x128x2) S1x1x32x128x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32x2x2.size a ≤ S4x6x64x2x2.size a
  hwx0_5 : ∀ i : grid0.Coords, EltTy.bits .f32 = 32 ∨ (Rect.block (s := S4x6x64x2x2) S1x1x32x2x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x32x2x2.size a ≤ S4x6x64x2x2.size a
  hwx0_6 : ∀ i : grid0.Coords, EltTy.bits .f32 = 32 ∨ (Rect.block (s := S4x6x64x2x2) S1x1x32x2x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x32x2x2.size a ≤ S4x6x64x2x2.size a
  hwx0_7 : ∀ i : grid0.Coords, EltTy.bits .f32 = 32 ∨ (Rect.block (s := S4x6x64x2x2) S1x1x32x2x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x32x2x2.size a ≤ S4x6x64x2x2.size a
  hwx0_8 : ∀ i : grid0.Coords, EltTy.bits .f32 = 32 ∨ (Rect.block (s := S4x6x64x2x2) S1x1x32x2x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x32x132x132.size a ≤ S4x6x64x132x132.size a
  hwx0_9 : ∀ i : grid0.Coords, EltTy.bits .f32 = 32 ∨ (Rect.block (s := S4x6x64x132x132) S1x1x32x132x132.size (cc0_transform_9 i) (hinb0_9 i)).WholeWords (EltTy.packing .f32)

variable [Facts₀]

abbrev win0_0 : Pipeline.Window sig grid0 :=
  Pipeline.Window.ofSpec (Memref.whole main_arg0) S1x1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x1x32x2x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x1x32x2x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x1x32x128x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v79) S1x1x32x128x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v83) S1x1x32x2x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v87) S1x1x32x2x2.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v91) S1x1x32x2x2.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v95) S1x1x32x2x2.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v96) S1x1x32x132x132.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x6x64x128x128 : Shape := ⟨5, ![4, 6, 64, 128, 128]⟩
abbrev S4x1x64x128x128 : Shape := ⟨5, ![4, 1, 64, 128, 128]⟩
abbrev S4x64x128x128 : Shape := ⟨4, ![4, 64, 128, 128]⟩
abbrev S4x64x2x128 : Shape := ⟨4, ![4, 64, 2, 128]⟩
abbrev S4x64x128x2 : Shape := ⟨4, ![4, 64, 128, 2]⟩
abbrev S4x1x64x2x128 : Shape := ⟨5, ![4, 1, 64, 2, 128]⟩
abbrev S4x6x64x2x128 : Shape := ⟨5, ![4, 6, 64, 2, 128]⟩
abbrev S4x1x64x128x2 : Shape := ⟨5, ![4, 1, 64, 128, 2]⟩
abbrev S4x6x64x128x2 : Shape := ⟨5, ![4, 6, 64, 128, 2]⟩
abbrev S4x6x64x2x1 : Shape := ⟨5, ![4, 6, 64, 2, 1]⟩
abbrev S1x4x1x6x1x64x1x2x1x1 : Shape := ⟨10, ![1, 4, 1, 6, 1, 64, 1, 2, 1, 1]⟩
abbrev S1x4x1x6x1x64x1x2x2x1 : Shape := ⟨10, ![1, 4, 1, 6, 1, 64, 1, 2, 2, 1]⟩
abbrev S4x6x64x2x2 : Shape := ⟨5, ![4, 6, 64, 2, 2]⟩
abbrev S4x6x64x132x128 : Shape := ⟨5, ![4, 6, 64, 132, 128]⟩
abbrev S4x6x64x132x2 : Shape := ⟨5, ![4, 6, 64, 132, 2]⟩
abbrev S4x6x64x132x132 : Shape := ⟨5, ![4, 6, 64, 132, 132]⟩

abbrev nBuf : Space → Nat
  | .hbm => 101
  | .vmem => 0
  | .smem => 0
  | _ => 0

abbrev bufTy : (tb : Table) → Fin (tcTables nBuf tb) → BufTy
  | .hbm, ⟨0, _⟩ => ⟨S4x6x64x128x128, .f32⟩
  | .hbm, ⟨1, _⟩ => ⟨S4x1x64x128x128, .f32⟩
  | .hbm, ⟨2, _⟩ => ⟨S4x64x128x128, .f32⟩
  | .hbm, ⟨3, _⟩ => ⟨S4x1x64x128x128, .f32⟩
  | .hbm, ⟨4, _⟩ => ⟨S4x64x128x128, .f32⟩
  | .hbm, ⟨5, _⟩ => ⟨S4x1x64x128x128, .f32⟩
  | .hbm, ⟨6, _⟩ => ⟨S4x64x128x128, .f32⟩
  | .hbm, ⟨7, _⟩ => ⟨S4x1x64x128x128, .f32⟩
  | .hbm, ⟨8, _⟩ => ⟨S4x64x128x128, .f32⟩
  | .hbm, ⟨9, _⟩ => ⟨S4x1x64x128x128, .f32⟩
  | .hbm, ⟨10, _⟩ => ⟨S4x64x128x128, .f32⟩
  | .hbm, ⟨11, _⟩ => ⟨S4x1x64x128x128, .f32⟩
  | .hbm, ⟨12, _⟩ => ⟨S4x64x128x128, .f32⟩
  | .hbm, ⟨13, _⟩ => ⟨S4x64x2x128, .f32⟩
  | .hbm, ⟨14, _⟩ => ⟨S4x64x2x128, .f32⟩
  | .hbm, ⟨15, _⟩ => ⟨S4x64x2x128, .f32⟩
  | .hbm, ⟨16, _⟩ => ⟨S4x64x2x128, .f32⟩
  | .hbm, ⟨17, _⟩ => ⟨S4x64x128x2, .f32⟩
  | .hbm, ⟨18, _⟩ => ⟨S4x64x2x128, .f32⟩
  | .hbm, ⟨19, _⟩ => ⟨S4x64x128x2, .f32⟩
  | .hbm, ⟨20, _⟩ => ⟨S4x64x2x128, .f32⟩
  | .hbm, ⟨21, _⟩ => ⟨S4x64x2x128, .f32⟩
  | .hbm, ⟨22, _⟩ => ⟨S4x64x2x128, .f32⟩
  | .hbm, ⟨23, _⟩ => ⟨S4x64x2x128, .f32⟩
  | .hbm, ⟨24, _⟩ => ⟨S4x1x64x2x128, .f32⟩
  | .hbm, ⟨25, _⟩ => ⟨S4x1x64x2x128, .f32⟩
  | .hbm, ⟨26, _⟩ => ⟨S4x1x64x2x128, .f32⟩
  | .hbm, ⟨27, _⟩ => ⟨S4x1x64x2x128, .f32⟩
  | .hbm, ⟨28, _⟩ => ⟨S4x1x64x2x128, .f32⟩
  | .hbm, ⟨29, _⟩ => ⟨S4x1x64x2x128, .f32⟩
  | .hbm, ⟨30, _⟩ => ⟨S4x6x64x2x128, .f32⟩
  | .hbm, ⟨31, _⟩ => ⟨S4x64x2x128, .f32⟩
  | .hbm, ⟨32, _⟩ => ⟨S4x64x2x128, .f32⟩
  | .hbm, ⟨33, _⟩ => ⟨S4x64x2x128, .f32⟩
  | .hbm, ⟨34, _⟩ => ⟨S4x64x2x128, .f32⟩
  | .hbm, ⟨35, _⟩ => ⟨S4x64x2x128, .f32⟩
  | .hbm, ⟨36, _⟩ => ⟨S4x64x128x2, .f32⟩
  | .hbm, ⟨37, _⟩ => ⟨S4x64x2x128, .f32⟩
  | .hbm, ⟨38, _⟩ => ⟨S4x64x2x128, .f32⟩
  | .hbm, ⟨39, _⟩ => ⟨S4x64x128x2, .f32⟩
  | .hbm, ⟨40, _⟩ => ⟨S4x64x2x128, .f32⟩
  | .hbm, ⟨41, _⟩ => ⟨S4x64x2x128, .f32⟩
  | .hbm, ⟨42, _⟩ => ⟨S4x1x64x2x128, .f32⟩
  | .hbm, ⟨43, _⟩ => ⟨S4x1x64x2x128, .f32⟩
  | .hbm, ⟨44, _⟩ => ⟨S4x1x64x2x128, .f32⟩
  | .hbm, ⟨45, _⟩ => ⟨S4x1x64x2x128, .f32⟩
  | .hbm, ⟨46, _⟩ => ⟨S4x1x64x2x128, .f32⟩
  | .hbm, ⟨47, _⟩ => ⟨S4x1x64x2x128, .f32⟩
  | .hbm, ⟨48, _⟩ => ⟨S4x6x64x2x128, .f32⟩
  | .hbm, ⟨49, _⟩ => ⟨S4x64x128x2, .f32⟩
  | .hbm, ⟨50, _⟩ => ⟨S4x64x2x128, .f32⟩
  | .hbm, ⟨51, _⟩ => ⟨S4x64x128x2, .f32⟩
  | .hbm, ⟨52, _⟩ => ⟨S4x64x128x2, .f32⟩
  | .hbm, ⟨53, _⟩ => ⟨S4x64x128x2, .f32⟩
  | .hbm, ⟨54, _⟩ => ⟨S4x64x128x2, .f32⟩
  | .hbm, ⟨55, _⟩ => ⟨S4x64x128x2, .f32⟩
  | .hbm, ⟨56, _⟩ => ⟨S4x64x2x128, .f32⟩
  | .hbm, ⟨57, _⟩ => ⟨S4x64x128x2, .f32⟩
  | .hbm, ⟨58, _⟩ => ⟨S4x1x64x128x2, .f32⟩
  | .hbm, ⟨59, _⟩ => ⟨S4x1x64x128x2, .f32⟩
  | .hbm, ⟨60, _⟩ => ⟨S4x1x64x128x2, .f32⟩
  | .hbm, ⟨61, _⟩ => ⟨S4x1x64x128x2, .f32⟩
  | .hbm, ⟨62, _⟩ => ⟨S4x1x64x128x2, .f32⟩
  | .hbm, ⟨63, _⟩ => ⟨S4x1x64x128x2, .f32⟩
  | .hbm, ⟨64, _⟩ => ⟨S4x6x64x128x2, .f32⟩
  | .hbm, ⟨65, _⟩ => ⟨S4x64x128x2, .f32⟩
  | .hbm, ⟨66, _⟩ => ⟨S4x64x2x128, .f32⟩
  | .hbm, ⟨67, _⟩ => ⟨S4x64x128x2, .f32⟩
  | .hbm, ⟨68, _⟩ => ⟨S4x64x128x2, .f32⟩
  | .hbm, ⟨69, _⟩ => ⟨S4x64x128x2, .f32⟩
  | .hbm, ⟨70, _⟩ => ⟨S4x64x128x2, .f32⟩
  | .hbm, ⟨71, _⟩ => ⟨S4x64x2x128, .f32⟩
  | .hbm, ⟨72, _⟩ => ⟨S4x64x128x2, .f32⟩
  | .hbm, ⟨73, _⟩ => ⟨S4x64x128x2, .f32⟩
  | .hbm, ⟨74, _⟩ => ⟨S4x1x64x128x2, .f32⟩
  | .hbm, ⟨75, _⟩ => ⟨S4x1x64x128x2, .f32⟩
  | .hbm, ⟨76, _⟩ => ⟨S4x1x64x128x2, .f32⟩
  | .hbm, ⟨77, _⟩ => ⟨S4x1x64x128x2, .f32⟩
  | .hbm, ⟨78, _⟩ => ⟨S4x1x64x128x2, .f32⟩
  | .hbm, ⟨79, _⟩ => ⟨S4x1x64x128x2, .f32⟩
  | .hbm, ⟨80, _⟩ => ⟨S4x6x64x128x2, .f32⟩
  | .hbm, ⟨81, _⟩ => ⟨S4x6x64x2x1, .f32⟩
  | .hbm, ⟨82, _⟩ => ⟨S1x4x1x6x1x64x1x2x1x1, .f32⟩
  | .hbm, ⟨83, _⟩ => ⟨S1x4x1x6x1x64x1x2x2x1, .f32⟩
  | .hbm, ⟨84, _⟩ => ⟨S4x6x64x2x2, .f32⟩
  | .hbm, ⟨85, _⟩ => ⟨S4x6x64x2x1, .f32⟩
  | .hbm, ⟨86, _⟩ => ⟨S1x4x1x6x1x64x1x2x1x1, .f32⟩
  | .hbm, ⟨87, _⟩ => ⟨S1x4x1x6x1x64x1x2x2x1, .f32⟩
  | .hbm, ⟨88, _⟩ => ⟨S4x6x64x2x2, .f32⟩
  | .hbm, ⟨89, _⟩ => ⟨S4x6x64x2x1, .f32⟩
  | .hbm, ⟨90, _⟩ => ⟨S1x4x1x6x1x64x1x2x1x1, .f32⟩
  | .hbm, ⟨91, _⟩ => ⟨S1x4x1x6x1x64x1x2x2x1, .f32⟩
  | .hbm, ⟨92, _⟩ => ⟨S4x6x64x2x2, .f32⟩
  | .hbm, ⟨93, _⟩ => ⟨S4x6x64x2x1, .f32⟩
  | .hbm, ⟨94, _⟩ => ⟨S1x4x1x6x1x64x1x2x1x1, .f32⟩
  | .hbm, ⟨95, _⟩ => ⟨S1x4x1x6x1x64x1x2x2x1, .f32⟩
  | .hbm, ⟨96, _⟩ => ⟨S4x6x64x2x2, .f32⟩
  | .hbm, ⟨97, _⟩ => ⟨S4x6x64x132x128, .f32⟩
  | .hbm, ⟨98, _⟩ => ⟨S4x6x64x132x2, .f32⟩
  | .hbm, ⟨99, _⟩ => ⟨S4x6x64x132x2, .f32⟩
  | .hbm, ⟨100, _⟩ => ⟨S4x6x64x132x132, .f32⟩
  | _, _ => ⟨S4x6x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩

abbrev nD : Nat := 1
abbrev τ : Topo := Topo.v7x

variable {F : FTy → Type} [FloatOps F]

class Facts₀ : Prop where
  slices_S4x6x64x128x128_S4x1x64x128x128_0_0_0_0_0 : S4x6x64x128x128.Slices ![0, 0, 0, 0, 0] S4x1x64x128x128
  shapeCasts_S4x1x64x128x128_S4x64x128x128 : S4x1x64x128x128.ShapeCasts S4x64x128x128
  slices_S4x6x64x128x128_S4x1x64x128x128_0_1_0_0_0 : S4x6x64x128x128.Slices ![0, 1, 0, 0, 0] S4x1x64x128x128
  slices_S4x6x64x128x128_S4x1x64x128x128_0_2_0_0_0 : S4x6x64x128x128.Slices ![0, 2, 0, 0, 0] S4x1x64x128x128
  slices_S4x6x64x128x128_S4x1x64x128x128_0_3_0_0_0 : S4x6x64x128x128.Slices ![0, 3, 0, 0, 0] S4x1x64x128x128
  slices_S4x6x64x128x128_S4x1x64x128x128_0_4_0_0_0 : S4x6x64x128x128.Slices ![0, 4, 0, 0, 0] S4x1x64x128x128
  slices_S4x6x64x128x128_S4x1x64x128x128_0_5_0_0_0 : S4x6x64x128x128.Slices ![0, 5, 0, 0, 0] S4x1x64x128x128
  slices_S4x64x128x128_S4x64x2x128_0_0_0_0 : S4x64x128x128.Slices ![0, 0, 0, 0] S4x64x2x128
  slices_S4x64x128x128_S4x64x2x128_0_0_126_0 : S4x64x128x128.Slices ![0, 0, 126, 0] S4x64x2x128
  slices_S4x64x128x128_S4x64x128x2_0_0_0_0 : S4x64x128x128.Slices ![0, 0, 0, 0] S4x64x128x2
  transposes_S4x64x128x2_S4x64x2x128_0_1_3_2 : S4x64x128x2.Transposes [0, 1, 3, 2] S4x64x2x128
  slices_S4x64x128x128_S4x64x128x2_0_0_0_126 : S4x64x128x128.Slices ![0, 0, 0, 126] S4x64x128x2
  bcast_S4x64x2x128_S4x1x64x2x128_0_2_3_4 : S4x64x2x128.BroadcastsInDim S4x1x64x2x128 (![0, 2, 3, 4] : Fin 4 → Fin S4x1x64x2x128.rank)
  concatenates_S4x1x64x2x128_S4x1x64x2x128_S4x1x64x2x128_S4x1x64x2x128_S4x1x64x2x128_S4x1x64x2x128_S4x6x64x2x128_d1 : Shape.Concatenates [S4x1x64x2x128, S4x1x64x2x128, S4x1x64x2x128, S4x1x64x2x128, S4x1x64x2x128, S4x1x64x2x128] S4x6x64x2x128 1
  transposes_S4x64x2x128_S4x64x128x2_0_1_3_2 : S4x64x2x128.Transposes [0, 1, 3, 2] S4x64x128x2
  bcast_S4x64x128x2_S4x1x64x128x2_0_2_3_4 : S4x64x128x2.BroadcastsInDim S4x1x64x128x2 (![0, 2, 3, 4] : Fin 4 → Fin S4x1x64x128x2.rank)
  concatenates_S4x1x64x128x2_S4x1x64x128x2_S4x1x64x128x2_S4x1x64x128x2_S4x1x64x128x2_S4x1x64x128x2_S4x6x64x128x2_d1 : Shape.Concatenates [S4x1x64x128x2, S4x1x64x128x2, S4x1x64x128x2, S4x1x64x128x2, S4x1x64x128x2, S4x1x64x128x2] S4x6x64x128x2 1
  slices_S4x6x64x2x128_S4x6x64x2x1_0_0_0_0_0 : S4x6x64x2x128.Slices ![0, 0, 0, 0, 0] S4x6x64x2x1
  shapeCasts_S4x6x64x2x1_S1x4x1x6x1x64x1x2x1x1 : S4x6x64x2x1.ShapeCasts S1x4x1x6x1x64x1x2x1x1
  bcast_S1x4x1x6x1x64x1x2x1x1_S1x4x1x6x1x64x1x2x2x1_0_1_2_3_4_5_6_7_8_9 : S1x4x1x6x1x64x1x2x1x1.BroadcastsInDim S1x4x1x6x1x64x1x2x2x1 (![0, 1, 2, 3, 4, 5, 6, 7, 8, 9] : Fin 10 → Fin S1x4x1x6x1x64x1x2x2x1.rank)
  shapeCasts_S1x4x1x6x1x64x1x2x2x1_S4x6x64x2x2 : S1x4x1x6x1x64x1x2x2x1.ShapeCasts S4x6x64x2x2
  slices_S4x6x64x2x128_S4x6x64x2x1_0_0_0_0_127 : S4x6x64x2x128.Slices ![0, 0, 0, 0, 127] S4x6x64x2x1
  concatenates_S4x6x64x2x128_S4x6x64x128x128_S4x6x64x2x128_S4x6x64x132x128_d3 : Shape.Concatenates [S4x6x64x2x128, S4x6x64x128x128, S4x6x64x2x128] S4x6x64x132x128 3
  concatenates_S4x6x64x2x2_S4x6x64x128x2_S4x6x64x2x2_S4x6x64x132x2_d3 : Shape.Concatenates [S4x6x64x2x2, S4x6x64x128x2, S4x6x64x2x2] S4x6x64x132x2 3
  concatenates_S4x6x64x132x2_S4x6x64x132x128_S4x6x64x132x2_S4x6x64x132x132_d4 : Shape.Concatenates [S4x6x64x132x2, S4x6x64x132x128, S4x6x64x132x2] S4x6x64x132x132 4

variable [Facts₀]

class Facts : Prop extends Facts₀ where

variable [Facts]
-- ==== Proof.LibNary.lean ====
/-
  General definitions: the join of three, or of six, arrays along an axis with the ARRAYS AS DIRECT ARGUMENTS.

  The library's `concatenate T a xs h` takes the pieces as a list `xs` of (shape, array) pairs and evidence `h` whose
  type mentions that list, so a rewriting pass cannot change a piece in place. `join3` and `join6` are the same joins
  for pieces of known shapes, each piece an argument of its own and the evidence stated over the shapes alone; they
  unfold to the library's join by definition. A fold over a straight line of host operations that meets a
  `stablehlo.concatenate` can be stated through them and then goes on rewriting inside the pieces.
-/
import Idealize.ShloMosaic.PureOps

noncomputable section

namespace Idealize.ShloMosaic

/-- Three arrays, of shapes `S0`, `S1`, `S2`, joined along axis `a` of `T`. -/
def join3 {α : Type} (T : Shape) (a : Fin T.rank) (S0 S1 S2 : Shape) (x0 : S0.Idx → α) (x1 : S1.Idx → α) (x2 : S2.Idx → α)
    (h : Shape.Concatenates [S0, S1, S2] T a) : T.Idx → α :=
  concatenate T a [⟨S0, x0⟩, ⟨S1, x1⟩, ⟨S2, x2⟩] h

/-- Six arrays of one shape `S` joined along axis `a` of `T`. -/
def join6 {α : Type} (T : Shape) (a : Fin T.rank) (S : Shape) (x0 x1 x2 x3 x4 x5 : S.Idx → α)
    (h : Shape.Concatenates [S, S, S, S, S, S] T a) : T.Idx → α :=
  concatenate T a [⟨S, x0⟩, ⟨S, x1⟩, ⟨S, x2⟩, ⟨S, x3⟩, ⟨S, x4⟩, ⟨S, x5⟩] h

end Idealize.ShloMosaic

end
-- ==== Proof.FrameB.lean ====
/-
  The frame of the kernel's program, at any reading of the floats: every weakly fair execution of @main terminates without a fault and
  leaves the argument array unchanged; and what the run leaves in the result array, named.

  @main is ninety-six host operations that cut the twelve border strips and the four corner patches out of the
  cube's faces (slices, reversals, transpositions, six-way joins along the face axis), then ONE pipelined region
  over the grid (batch, face, channel half): at a point the body loads the nine input blocks whole, joins them
  three by three along the rows and then along the columns, and stores the 32 x 132 x 132 result over the whole
  output block. The body keeps nothing between points, so the proof data of the pipeline are: each input's
  staging buffer at its block of the array the region finds, the output's at the join of those blocks.
-/
import proofs.«164980_j69243462746691_1_alg».proof.Proof.Gen.Kernel.Launch
import proofs.«164980_j69243462746691_1_alg».proof.Proof.Gen.Kernel.Skeleton
import proofs.«164980_j69243462746691_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a buffer of its own, never the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the entry array at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the entry array at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the entry array at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the entry array at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block of the entry array at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block of the entry array at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block of the entry array at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block of the entry array at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block of the entry array at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument array is window 0's: an input window's array ends at its entry contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses: every load and the one store take a whole block -/

abbrev rX : Rect S1x1x32x128x128 := Rect.unit (s := S1x1x32x128x128) ![0, 0, 0, 0, 0] S1x1x32x128x128.size inb_S1x1x32x128x128_S1x1x32x128x128_0_0_0_0_0
abbrev rT : Rect S1x1x32x2x128 := Rect.unit (s := S1x1x32x2x128) ![0, 0, 0, 0, 0] S1x1x32x2x128.size inb_S1x1x32x2x128_S1x1x32x2x128_0_0_0_0_0
abbrev rS : Rect S1x1x32x128x2 := Rect.unit (s := S1x1x32x128x2) ![0, 0, 0, 0, 0] S1x1x32x128x2.size inb_S1x1x32x128x2_S1x1x32x128x2_0_0_0_0_0
abbrev rC : Rect S1x1x32x2x2 := Rect.unit (s := S1x1x32x2x2) ![0, 0, 0, 0, 0] S1x1x32x2x2.size inb_S1x1x32x2x2_S1x1x32x2x2_0_0_0_0_0
abbrev rO : Rect S1x1x32x132x132 := Rect.unit (s := S1x1x32x132x132) ![0, 0, 0, 0, 0] S1x1x32x132x132.size inb_S1x1x32x132x132_S1x1x32x132x132_0_0_0_0_0

/-! ## What the body leaves in the output window's buffer -/

/-- The output block from the nine input blocks (x, top, bottom, left, right, and the four corners top-left,
    top-right, bottom-left, bottom-right): the one store's payload over the whole block. -/
def out0_9 (x0 : Vec F S1x1x32x128x128 .f32) (x1 : Vec F S1x1x32x2x128 .f32) (x2 : Vec F S1x1x32x2x128 .f32) (x3 : Vec F S1x1x32x128x2 .f32) (x4 : Vec F S1x1x32x128x2 .f32) (x5 : Vec F S1x1x32x2x2 .f32) (x6 : Vec F S1x1x32x2x2 .f32) (x7 : Vec F S1x1x32x2x2 .f32) (x8 : Vec F S1x1x32x2x2 .f32) : Vec F S1x1x32x132x132 .f32 :=
  View.canon [⟨rO, k0_pay1 (k0_pay2 (View.ld x1 rT) (View.ld x0 rX) (View.ld x2 rT)) (k0_pay3 (View.ld x5 rC) (View.ld x3 rS) (View.ld x7 rC)) (k0_pay4 (View.ld x6 rC)) (View.ld x4 rS) (View.ld x8 rC)⟩]

/-- The one store covers the block. -/
theorem cover0_9 (p0 : Vec F S1x1x32x132x132 .f32) (y : S1x1x32x132x132.Idx) :
    ∃ pc ∈ ([⟨rO, p0⟩] : List (View.Piece (Elt F) S1x1x32x132x132 .f32)), y ∈ pc.1.set :=
  View.cover_of_tiled [⟨rO, p0⟩] S1x1x32x132x132.size (by rfl) y

/-! ## The body's triple -/

set_option maxHeartbeats 4000000 in
/-- The body on whole staging memrefs, the inputs' at contents `xW` and the output's at anything, runs to the
    continuation with the inputs' as they were and the output's at `out0_9` of them. -/
theorem sound_kernel (c : Dev nD) (E : Set ℕ) (i : grid0.Coords) (arg3 : Memref sig .tc .vmem S1x1x32x128x128 .f32) (harg3 : arg3.IsWhole) (arg4 : Memref sig .tc .vmem S1x1x32x2x128 .f32) (harg4 : arg4.IsWhole) (arg5 : Memref sig .tc .vmem S1x1x32x2x128 .f32) (harg5 : arg5.IsWhole) (arg6 : Memref sig .tc .vmem S1x1x32x128x2 .f32) (harg6 : arg6.IsWhole) (arg7 : Memref sig .tc .vmem S1x1x32x128x2 .f32) (harg7 : arg7.IsWhole) (arg8 : Memref sig .tc .vmem S1x1x32x2x2 .f32) (harg8 : arg8.IsWhole) (arg9 : Memref sig .tc .vmem S1x1x32x2x2 .f32) (harg9 : arg9.IsWhole) (arg10 : Memref sig .tc .vmem S1x1x32x2x2 .f32) (harg10 : arg10.IsWhole) (arg11 : Memref sig .tc .vmem S1x1x32x2x2 .f32) (harg11 : arg11.IsWhole) (arg12 : Memref sig .tc .vmem S1x1x32x132x132 .f32) (harg12 : arg12.IsWhole)
    (x0 : Vec F S1x1x32x128x128 .f32) (x1 : Vec F S1x1x32x2x128 .f32) (x2 : Vec F S1x1x32x2x128 .f32) (x3 : Vec F S1x1x32x128x2 .f32) (x4 : Vec F S1x1x32x128x2 .f32) (x5 : Vec F S1x1x32x2x2 .f32) (x6 : Vec F S1x1x32x2x2 .f32) (x7 : Vec F S1x1x32x2x2 .f32) (x8 : Vec F S1x1x32x2x2 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (out0_9 x0 x1 x2 x3 x4 x5 x6 x7 x8)) -∗ K ⟨⟩))
      ⊢ wp frame (wpE (defs₀ (F := F)) Variants.none c none) E (cc0__assemble_kernel i arg3 harg3 arg4 harg4 arg5 harg5 arg6 harg6 arg7 harg7 arg8 harg8 arg9 harg9 arg10 harg10 arg11 harg11 arg12 harg12) K := by
  simp only [cc0__assemble_kernel_eq_skeleton]; unfold cc0__assemble_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The arrays as the region finds them; after the body at point `t` each input's buffer at its block and the
    output's at the join of the input blocks; nothing carried, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- At any point the inputs' memrefs hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the proof data give
    and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Fr

end
-- ==== Proof.FrameI.lean ====
/-
  The frame of the kernel's program, at any reading of the floats: every weakly fair execution of @main terminates without a fault and
  leaves the argument array unchanged; and what the run leaves in the result array, named.

  @main is ninety-six host operations that cut the twelve border strips and the four corner patches out of the
  cube's faces (slices, reversals, transpositions, six-way joins along the face axis), then ONE pipelined region
  over the grid (batch, face, channel half): at a point the body loads the nine input blocks whole, joins them
  three by three along the rows and then along the columns, and stores the 32 x 132 x 132 result over the whole
  output block. The body keeps nothing between points, so the proof data of the pipeline are: each input's
  staging buffer at its block of the array the region finds, the output's at the join of those blocks.
-/
import proofs.«164980_j69243462746691_1_alg».proof.Proof.Gen.KernelIdeal.Launch
import proofs.«164980_j69243462746691_1_alg».proof.Proof.Gen.KernelIdeal.Skeleton
import proofs.«164980_j69243462746691_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a buffer of its own, never the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the entry array at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the entry array at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the entry array at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the entry array at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block of the entry array at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block of the entry array at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block of the entry array at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block of the entry array at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block of the entry array at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument array is window 0's: an input window's array ends at its entry contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses: every load and the one store take a whole block -/

abbrev rX : Rect S1x1x32x128x128 := Rect.unit (s := S1x1x32x128x128) ![0, 0, 0, 0, 0] S1x1x32x128x128.size inb_S1x1x32x128x128_S1x1x32x128x128_0_0_0_0_0
abbrev rT : Rect S1x1x32x2x128 := Rect.unit (s := S1x1x32x2x128) ![0, 0, 0, 0, 0] S1x1x32x2x128.size inb_S1x1x32x2x128_S1x1x32x2x128_0_0_0_0_0
abbrev rS : Rect S1x1x32x128x2 := Rect.unit (s := S1x1x32x128x2) ![0, 0, 0, 0, 0] S1x1x32x128x2.size inb_S1x1x32x128x2_S1x1x32x128x2_0_0_0_0_0
abbrev rC : Rect S1x1x32x2x2 := Rect.unit (s := S1x1x32x2x2) ![0, 0, 0, 0, 0] S1x1x32x2x2.size inb_S1x1x32x2x2_S1x1x32x2x2_0_0_0_0_0
abbrev rO : Rect S1x1x32x132x132 := Rect.unit (s := S1x1x32x132x132) ![0, 0, 0, 0, 0] S1x1x32x132x132.size inb_S1x1x32x132x132_S1x1x32x132x132_0_0_0_0_0

/-! ## What the body leaves in the output window's buffer -/

/-- The output block from the nine input blocks (x, top, bottom, left, right, and the four corners top-left,
    top-right, bottom-left, bottom-right): the one store's payload over the whole block. -/
def out0_9 (x0 : Vec F S1x1x32x128x128 .f32) (x1 : Vec F S1x1x32x2x128 .f32) (x2 : Vec F S1x1x32x2x128 .f32) (x3 : Vec F S1x1x32x128x2 .f32) (x4 : Vec F S1x1x32x128x2 .f32) (x5 : Vec F S1x1x32x2x2 .f32) (x6 : Vec F S1x1x32x2x2 .f32) (x7 : Vec F S1x1x32x2x2 .f32) (x8 : Vec F S1x1x32x2x2 .f32) : Vec F S1x1x32x132x132 .f32 :=
  View.canon [⟨rO, k0_pay1 (k0_pay2 (View.ld x1 rT) (View.ld x0 rX) (View.ld x2 rT)) (k0_pay3 (View.ld x5 rC) (View.ld x3 rS) (View.ld x7 rC)) (k0_pay4 (View.ld x6 rC)) (View.ld x4 rS) (View.ld x8 rC)⟩]

/-- The one store covers the block. -/
theorem cover0_9 (p0 : Vec F S1x1x32x132x132 .f32) (y : S1x1x32x132x132.Idx) :
    ∃ pc ∈ ([⟨rO, p0⟩] : List (View.Piece (Elt F) S1x1x32x132x132 .f32)), y ∈ pc.1.set :=
  View.cover_of_tiled [⟨rO, p0⟩] S1x1x32x132x132.size (by rfl) y

/-! ## The body's triple -/

set_option maxHeartbeats 4000000 in
/-- The body on whole staging memrefs, the inputs' at contents `xW` and the output's at anything, runs to the
    continuation with the inputs' as they were and the output's at `out0_9` of them. -/
theorem sound_kernel (c : Dev nD) (E : Set ℕ) (i : grid0.Coords) (arg3 : Memref sig .tc .vmem S1x1x32x128x128 .f32) (harg3 : arg3.IsWhole) (arg4 : Memref sig .tc .vmem S1x1x32x2x128 .f32) (harg4 : arg4.IsWhole) (arg5 : Memref sig .tc .vmem S1x1x32x2x128 .f32) (harg5 : arg5.IsWhole) (arg6 : Memref sig .tc .vmem S1x1x32x128x2 .f32) (harg6 : arg6.IsWhole) (arg7 : Memref sig .tc .vmem S1x1x32x128x2 .f32) (harg7 : arg7.IsWhole) (arg8 : Memref sig .tc .vmem S1x1x32x2x2 .f32) (harg8 : arg8.IsWhole) (arg9 : Memref sig .tc .vmem S1x1x32x2x2 .f32) (harg9 : arg9.IsWhole) (arg10 : Memref sig .tc .vmem S1x1x32x2x2 .f32) (harg10 : arg10.IsWhole) (arg11 : Memref sig .tc .vmem S1x1x32x2x2 .f32) (harg11 : arg11.IsWhole) (arg12 : Memref sig .tc .vmem S1x1x32x132x132 .f32) (harg12 : arg12.IsWhole)
    (x0 : Vec F S1x1x32x128x128 .f32) (x1 : Vec F S1x1x32x2x128 .f32) (x2 : Vec F S1x1x32x2x128 .f32) (x3 : Vec F S1x1x32x128x2 .f32) (x4 : Vec F S1x1x32x128x2 .f32) (x5 : Vec F S1x1x32x2x2 .f32) (x6 : Vec F S1x1x32x2x2 .f32) (x7 : Vec F S1x1x32x2x2 .f32) (x8 : Vec F S1x1x32x2x2 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (out0_9 x0 x1 x2 x3 x4 x5 x6 x7 x8)) -∗ K ⟨⟩))
      ⊢ wp frame (wpE (defs₀ (F := F)) Variants.none c none) E (cc0__assemble_kernel i arg3 harg3 arg4 harg4 arg5 harg5 arg6 harg6 arg7 harg7 arg8 harg8 arg9 harg9 arg10 harg10 arg11 harg11 arg12 harg12) K := by
  simp only [cc0__assemble_kernel_eq_skeleton]; unfold cc0__assemble_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The arrays as the region finds them; after the body at point `t` each input's buffer at its block and the
    output's at the join of the input blocks; nothing carried, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- At any point the inputs' memrefs hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the proof data give
    and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Fr

end
-- ==== Proof.Join.lean ====
/-
  Joins of three pieces along one axis, read block by block.

  An array of shape [4, 6, 64, h, w] is cut into blocks [32, h, w], one per batch entry, face and channel half. If an
  array is the join of three arrays along its rows (extents 2, 128, 2) or along its columns (the same extents), then
  each of its blocks is the join, along the same axis, of the three arrays' blocks: a coordinate on the joined axis
  falls in the same piece, at the same place inside it, whether one looks at the array or at its block, because the
  block cuts only the first three axes. Also here: a [1, 1, m, a, b] array viewed as [m, a, b] and back, read at an
  index (both views keep the row-major position).
-/
import Idealize.ShloMosaic.Lib.Pipeline.Value
import Idealize.ShloMosaic.Lib.ValueIdx

namespace Cert.CubeJoin

open Idealize.ShloMosaic Idealize.ShloMosaic.ValueIdx

variable {α : Type}

/-! ## Two leading unit axes dropped or added -/

/-- A `[1, 1, m, a, b]` array viewed as `[m, a, b]` reads, at `(k, i, j)`, the operand at `(0, 0, k, i, j)`. -/
theorem cast_11abc_abc {m a b : ℕ} (x : (⟨5, ![1, 1, m, a, b]⟩ : Shape).Idx → α)
    (h : (⟨5, ![1, 1, m, a, b]⟩ : Shape).ShapeCasts ⟨3, ![m, a, b]⟩) (k : Fin m) (i : Fin a) (j : Fin b) :
    shapeCast ⟨3, ![m, a, b]⟩ x h (ix3 k i j) = x (ix5 (0 : Fin 1) (0 : Fin 1) k i j) :=
by
  refine shapeCast_apply x h _ _ ?_
  rw [Shape.rowMajor_val_five, Shape.rowMajor_val_three]
  show (((0 * 1 + 0) * m + k.val) * a + i.val) * b + j.val = (k.val * a + i.val) * b + j.val
  simp

/-- An `[m, a, b]` array viewed as `[1, 1, m, a, b]` reads, at `(u, v, k, i, j)`, the operand at `(k, i, j)`. -/
theorem cast_abc_11abc {m a b : ℕ} (x : (⟨3, ![m, a, b]⟩ : Shape).Idx → α)
    (h : (⟨3, ![m, a, b]⟩ : Shape).ShapeCasts ⟨5, ![1, 1, m, a, b]⟩) (u v : Fin 1) (k : Fin m) (i : Fin a) (j : Fin b) :
    shapeCast ⟨5, ![1, 1, m, a, b]⟩ x h (ix5 u v k i j) = x (ix3 k i j) :=
by
  have hu : u.val = 0 := by omega
  have hv : v.val = 0 := by omega
  refine shapeCast_apply x h _ _ ?_
  rw [Shape.rowMajor_val_five, Shape.rowMajor_val_three]
  show (k.val * a + i.val) * b + j.val = (((u.val * 1 + v.val) * m + k.val) * a + i.val) * b + j.val
  rw [hu, hv]
  simp

/-! ## Blocks -/

/-- The block of a `[4, 6, 64, h, w]` array at batch entry `b`, face `f` and channel half `g`: channels
    `32 g … 32 g + 31`, every row and column. -/
def blk {h w : ℕ} (X : (⟨5, ![4, 6, 64, h, w]⟩ : Shape).Idx → α) (b : Fin 4) (f : Fin 6) (g : Fin 2) : (⟨3, ![32, h, w]⟩ : Shape).Idx → α :=
  fun i => X (ix5 b f (⟨32 * g.val + (i 0).val, by have h0 : (i 0).val < 32 := (i 0).isLt; omega⟩ : Fin 64) (i 1) (i 2))

theorem blk_apply {h w : ℕ} (X : (⟨5, ![4, 6, 64, h, w]⟩ : Shape).Idx → α) (b : Fin 4) (f : Fin 6) (g : Fin 2) (k : Fin 32) (r : Fin h) (q : Fin w)
    (hk : 32 * g.val + k.val < 64) :
    blk X b f g (ix3 k r q) = X (ix5 b f ⟨32 * g.val + k.val, hk⟩ r q) := rfl

/-! ## The block of a join along the rows -/

theorem blk_joinRows {w : ℕ} (A : (⟨5, ![4, 6, 64, 2, w]⟩ : Shape).Idx → α) (B : (⟨5, ![4, 6, 64, 128, w]⟩ : Shape).Idx → α) (C : (⟨5, ![4, 6, 64, 2, w]⟩ : Shape).Idx → α)
    (h5 : Shape.Concatenates (([⟨(⟨5, ![4, 6, 64, 2, w]⟩ : Shape), A⟩, ⟨(⟨5, ![4, 6, 64, 128, w]⟩ : Shape), B⟩, ⟨(⟨5, ![4, 6, 64, 2, w]⟩ : Shape), C⟩] : List ((s : Shape) × (s.Idx → α))).map (·.1)) (⟨5, ![4, 6, 64, 132, w]⟩ : Shape) 3)
    (b : Fin 4) (f : Fin 6) (g : Fin 2)
    (h3 : Shape.Concatenates (([⟨(⟨3, ![32, 2, w]⟩ : Shape), blk A b f g⟩, ⟨(⟨3, ![32, 128, w]⟩ : Shape), blk B b f g⟩, ⟨(⟨3, ![32, 2, w]⟩ : Shape), blk C b f g⟩] : List ((s : Shape) × (s.Idx → α))).map (·.1)) (⟨3, ![32, 132, w]⟩ : Shape) 1) :
    concatenate (⟨3, ![32, 132, w]⟩ : Shape) 1 [⟨(⟨3, ![32, 2, w]⟩ : Shape), blk A b f g⟩, ⟨(⟨3, ![32, 128, w]⟩ : Shape), blk B b f g⟩, ⟨(⟨3, ![32, 2, w]⟩ : Shape), blk C b f g⟩] h3
      = blk (concatenate (⟨5, ![4, 6, 64, 132, w]⟩ : Shape) 3 [⟨(⟨5, ![4, 6, 64, 2, w]⟩ : Shape), A⟩, ⟨(⟨5, ![4, 6, 64, 128, w]⟩ : Shape), B⟩, ⟨(⟨5, ![4, 6, 64, 2, w]⟩ : Shape), C⟩] h5) b f g := by
  funext i
  obtain ⟨k, r, q, rfl⟩ : ∃ (k : Fin 32) (r : Fin 132) (q : Fin w), i = ix3 k r q := ⟨i 0, i 1, i 2, eq_ix3 i⟩
  have hk : 32 * g.val + k.val < 64 := by omega
  rw [blk_apply _ b f g k r q hk]
  by_cases h1 : r.val < 2
  · rw [concatenate_apply_piece 1 _ h3 (ix3 k r q) 0 (by simp) _ (blk A b f g) rfl rfl 0 rfl (ix3 k ⟨r.val, h1⟩ q)
        (fun b' hb => by match b' with | ⟨0, _⟩ => rfl | ⟨1, _⟩ => exact absurd rfl hb | ⟨2, _⟩ => rfl) (Nat.zero_add _),
      concatenate_apply_piece 3 _ h5 (ix5 b f ⟨_, hk⟩ r q) 0 (by simp) _ A rfl rfl 0 rfl (ix5 b f ⟨_, hk⟩ ⟨r.val, h1⟩ q)
        (fun b' hb => by match b' with | ⟨0, _⟩ => rfl | ⟨1, _⟩ => rfl | ⟨2, _⟩ => rfl | ⟨3, _⟩ => exact absurd rfl hb | ⟨4, _⟩ => rfl) (Nat.zero_add _)]
    rfl
  · by_cases h2 : r.val < 130
    · have hr : r.val - 2 < 128 := by omega
      rw [concatenate_apply_piece 1 _ h3 (ix3 k r q) 1 (by simp) _ (blk B b f g) rfl rfl 2 rfl (ix3 k ⟨r.val - 2, hr⟩ q)
          (fun b' hb => by match b' with | ⟨0, _⟩ => rfl | ⟨1, _⟩ => exact absurd rfl hb | ⟨2, _⟩ => rfl) (by show 2 + (r.val - 2) = r.val; omega),
        concatenate_apply_piece 3 _ h5 (ix5 b f ⟨_, hk⟩ r q) 1 (by simp) _ B rfl rfl 2 rfl (ix5 b f ⟨_, hk⟩ ⟨r.val - 2, hr⟩ q)
          (fun b' hb => by match b' with | ⟨0, _⟩ => rfl | ⟨1, _⟩ => rfl | ⟨2, _⟩ => rfl | ⟨3, _⟩ => exact absurd rfl hb | ⟨4, _⟩ => rfl) (by show 2 + (r.val - 2) = r.val; omega)]
      rfl
    · have hr : r.val - 130 < 2 := by omega
      rw [concatenate_apply_piece 1 _ h3 (ix3 k r q) 2 (by simp) _ (blk C b f g) rfl rfl 130 rfl (ix3 k ⟨r.val - 130, hr⟩ q)
          (fun b' hb => by match b' with | ⟨0, _⟩ => rfl | ⟨1, _⟩ => exact absurd rfl hb | ⟨2, _⟩ => rfl) (by show 130 + (r.val - 130) = r.val; omega),
        concatenate_apply_piece 3 _ h5 (ix5 b f ⟨_, hk⟩ r q) 2 (by simp) _ C rfl rfl 130 rfl (ix5 b f ⟨_, hk⟩ ⟨r.val - 130, hr⟩ q)
          (fun b' hb => by match b' with | ⟨0, _⟩ => rfl | ⟨1, _⟩ => rfl | ⟨2, _⟩ => rfl | ⟨3, _⟩ => exact absurd rfl hb | ⟨4, _⟩ => rfl) (by show 130 + (r.val - 130) = r.val; omega)]
      rfl

/-! ## The block of a join along the columns -/

theorem blk_joinCols {h : ℕ} (A : (⟨5, ![4, 6, 64, h, 2]⟩ : Shape).Idx → α) (B : (⟨5, ![4, 6, 64, h, 128]⟩ : Shape).Idx → α) (C : (⟨5, ![4, 6, 64, h, 2]⟩ : Shape).Idx → α)
    (h5 : Shape.Concatenates (([⟨(⟨5, ![4, 6, 64, h, 2]⟩ : Shape), A⟩, ⟨(⟨5, ![4, 6, 64, h, 128]⟩ : Shape), B⟩, ⟨(⟨5, ![4, 6, 64, h, 2]⟩ : Shape), C⟩] : List ((s : Shape) × (s.Idx → α))).map (·.1)) (⟨5, ![4, 6, 64, h, 132]⟩ : Shape) 4)
    (b : Fin 4) (f : Fin 6) (g : Fin 2)
    (h3 : Shape.Concatenates (([⟨(⟨3, ![32, h, 2]⟩ : Shape), blk A b f g⟩, ⟨(⟨3, ![32, h, 128]⟩ : Shape), blk B b f g⟩, ⟨(⟨3, ![32, h, 2]⟩ : Shape), blk C b f g⟩] : List ((s : Shape) × (s.Idx → α))).map (·.1)) (⟨3, ![32, h, 132]⟩ : Shape) 2) :
    concatenate (⟨3, ![32, h, 132]⟩ : Shape) 2 [⟨(⟨3, ![32, h, 2]⟩ : Shape), blk A b f g⟩, ⟨(⟨3, ![32, h, 128]⟩ : Shape), blk B b f g⟩, ⟨(⟨3, ![32, h, 2]⟩ : Shape), blk C b f g⟩] h3
      = blk (concatenate (⟨5, ![4, 6, 64, h, 132]⟩ : Shape) 4 [⟨(⟨5, ![4, 6, 64, h, 2]⟩ : Shape), A⟩, ⟨(⟨5, ![4, 6, 64, h, 128]⟩ : Shape), B⟩, ⟨(⟨5, ![4, 6, 64, h, 2]⟩ : Shape), C⟩] h5) b f g := by
  funext i
  obtain ⟨k, r, q, rfl⟩ : ∃ (k : Fin 32) (r : Fin h) (q : Fin 132), i = ix3 k r q := ⟨i 0, i 1, i 2, eq_ix3 i⟩
  have hk : 32 * g.val + k.val < 64 := by omega
  rw [blk_apply _ b f g k r q hk]
  by_cases h1 : q.val < 2
  · rw [concatenate_apply_piece 2 _ h3 (ix3 k r q) 0 (by simp) _ (blk A b f g) rfl rfl 0 rfl (ix3 k r ⟨q.val, h1⟩)
        (fun b' hb => by match b' with | ⟨0, _⟩ => rfl | ⟨1, _⟩ => rfl | ⟨2, _⟩ => exact absurd rfl hb) (Nat.zero_add _),
      concatenate_apply_piece 4 _ h5 (ix5 b f ⟨_, hk⟩ r q) 0 (by simp) _ A rfl rfl 0 rfl (ix5 b f ⟨_, hk⟩ r ⟨q.val, h1⟩)
        (fun b' hb => by match b' with | ⟨0, _⟩ => rfl | ⟨1, _⟩ => rfl | ⟨2, _⟩ => rfl | ⟨3, _⟩ => rfl | ⟨4, _⟩ => exact absurd rfl hb) (Nat.zero_add _)]
    rfl
  · by_cases h2 : q.val < 130
    · have hq : q.val - 2 < 128 := by omega
      rw [concatenate_apply_piece 2 _ h3 (ix3 k r q) 1 (by simp) _ (blk B b f g) rfl rfl 2 rfl (ix3 k r ⟨q.val - 2, hq⟩)
          (fun b' hb => by match b' with | ⟨0, _⟩ => rfl | ⟨1, _⟩ => rfl | ⟨2, _⟩ => exact absurd rfl hb) (by show 2 + (q.val - 2) = q.val; omega),
        concatenate_apply_piece 4 _ h5 (ix5 b f ⟨_, hk⟩ r q) 1 (by simp) _ B rfl rfl 2 rfl (ix5 b f ⟨_, hk⟩ r ⟨q.val - 2, hq⟩)
          (fun b' hb => by match b' with | ⟨0, _⟩ => rfl | ⟨1, _⟩ => rfl | ⟨2, _⟩ => rfl | ⟨3, _⟩ => rfl | ⟨4, _⟩ => exact absurd rfl hb) (by show 2 + (q.val - 2) = q.val; omega)]
      rfl
    · have hq : q.val - 130 < 2 := by omega
      rw [concatenate_apply_piece 2 _ h3 (ix3 k r q) 2 (by simp) _ (blk C b f g) rfl rfl 130 rfl (ix3 k r ⟨q.val - 130, hq⟩)
          (fun b' hb => by match b' with | ⟨0, _⟩ => rfl | ⟨1, _⟩ => rfl | ⟨2, _⟩ => exact absurd rfl hb) (by show 130 + (q.val - 130) = q.val; omega),
        concatenate_apply_piece 4 _ h5 (ix5 b f ⟨_, hk⟩ r q) 2 (by simp) _ C rfl rfl 130 rfl (ix5 b f ⟨_, hk⟩ r ⟨q.val - 130, hq⟩)
          (fun b' hb => by match b' with | ⟨0, _⟩ => rfl | ⟨1, _⟩ => rfl | ⟨2, _⟩ => rfl | ⟨3, _⟩ => rfl | ⟨4, _⟩ => exact absurd rfl hb) (by show 130 + (q.val - 130) = q.val; omega)]
      rfl

end Cert.CubeJoin
-- ==== Proof.KValue.lean ====
/-
  What the kernel's run leaves in its result array: the padded cube, as the joins of the arrays the region finds.

  At a grid point (batch entry, face, channel half) the body's output block is the join, along the columns, of three
  joins along the rows of the nine input blocks, and each input block is the point's block of a whole array: the
  argument, or one of the eight strip and corner arrays the host operations computed. The block of a join is the join
  of the blocks (rows, then columns), so the output block is the point's block of the join of the whole arrays. The
  forty-eight output blocks tile the result array, so the array ends at that join.
-/
import proofs.«164980_j69243462746691_1_alg».proof.Proof.FrameI
import proofs.«164980_j69243462746691_1_alg».proof.Proof.Join
import proofs.«164980_j69243462746691_1_alg».proof.Proof.LibNary
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.CubeJoin
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz : (![0, 0, 0, 0, 0] : Fin 5 → Nat) = fun _ => 0 := funext fun a => by fin_cases a <;> rfl

/-- A grid point's batch entry, face and channel half. -/
abbrev pb (t : Fin cfg0.N) : Fin 4 := grid0.coords t 0
abbrev pf (t : Fin cfg0.N) : Fin 6 := grid0.coords t 1
abbrev pg (t : Fin cfg0.N) : Fin 2 := grid0.coords t 2

/-- The padded cube as the joins of the arrays the region finds: for the left, middle and right column bands a corner
    (or the strip above), the side strip (or the faces), a corner (or the strip below) joined along the rows; the three
    bands joined along the columns. -/
def cube (c : Dev nD) : (⟨5, ![4, 6, 64, 132, 132]⟩ : Shape).Idx → Elt F .f32 :=
  join3 (⟨5, ![4, 6, 64, 132, 132]⟩ : Shape) 4 (⟨5, ![4, 6, 64, 132, 2]⟩ : Shape) (⟨5, ![4, 6, 64, 132, 128]⟩ : Shape) (⟨5, ![4, 6, 64, 132, 2]⟩ : Shape)
    (join3 (⟨5, ![4, 6, 64, 132, 2]⟩ : Shape) 3 (⟨5, ![4, 6, 64, 2, 2]⟩ : Shape) (⟨5, ![4, 6, 64, 128, 2]⟩ : Shape) (⟨5, ![4, 6, 64, 2, 2]⟩ : Shape) (V m c main_v83) (V m c main_v63) (V m c main_v91) (show Shape.Concatenates [(⟨5, ![4, 6, 64, 2, 2]⟩ : Shape), (⟨5, ![4, 6, 64, 128, 2]⟩ : Shape), (⟨5, ![4, 6, 64, 2, 2]⟩ : Shape)] (⟨5, ![4, 6, 64, 132, 2]⟩ : Shape) 3 by decide))
    (join3 (⟨5, ![4, 6, 64, 132, 128]⟩ : Shape) 3 (⟨5, ![4, 6, 64, 2, 128]⟩ : Shape) (⟨5, ![4, 6, 64, 128, 128]⟩ : Shape) (⟨5, ![4, 6, 64, 2, 128]⟩ : Shape) (V m c main_v29) (V m c main_arg0) (V m c main_v47) (show Shape.Concatenates [(⟨5, ![4, 6, 64, 2, 128]⟩ : Shape), (⟨5, ![4, 6, 64, 128, 128]⟩ : Shape), (⟨5, ![4, 6, 64, 2, 128]⟩ : Shape)] (⟨5, ![4, 6, 64, 132, 128]⟩ : Shape) 3 by decide))
    (join3 (⟨5, ![4, 6, 64, 132, 2]⟩ : Shape) 3 (⟨5, ![4, 6, 64, 2, 2]⟩ : Shape) (⟨5, ![4, 6, 64, 128, 2]⟩ : Shape) (⟨5, ![4, 6, 64, 2, 2]⟩ : Shape) (V m c main_v87) (V m c main_v79) (V m c main_v95) (show Shape.Concatenates [(⟨5, ![4, 6, 64, 2, 2]⟩ : Shape), (⟨5, ![4, 6, 64, 128, 2]⟩ : Shape), (⟨5, ![4, 6, 64, 2, 2]⟩ : Shape)] (⟨5, ![4, 6, 64, 132, 2]⟩ : Shape) 3 by decide))
    (show Shape.Concatenates [(⟨5, ![4, 6, 64, 132, 2]⟩ : Shape), (⟨5, ![4, 6, 64, 132, 128]⟩ : Shape), (⟨5, ![4, 6, 64, 132, 2]⟩ : Shape)] (⟨5, ![4, 6, 64, 132, 132]⟩ : Shape) 4 by decide)

/-! ## The index maps: every window's block index at a point is (batch entry, face, channel half, 0, 0) -/

theorem idx_facts_0 : ∀ t : Fin cfg0.N, win0_0.index t (0 : Fin 5) = (pb t).val ∧ win0_0.index t (1 : Fin 5) = (pf t).val
    ∧ win0_0.index t (2 : Fin 5) = (pg t).val ∧ win0_0.index t (3 : Fin 5) = 0 ∧ win0_0.index t (4 : Fin 5) = 0 :=
  (by decide +kernel : ∀ t : Fin grid0.N, _)
theorem idx_facts_1 : ∀ t : Fin cfg0.N, win0_1.index t (0 : Fin 5) = (pb t).val ∧ win0_1.index t (1 : Fin 5) = (pf t).val
    ∧ win0_1.index t (2 : Fin 5) = (pg t).val ∧ win0_1.index t (3 : Fin 5) = 0 ∧ win0_1.index t (4 : Fin 5) = 0 :=
  (by decide +kernel : ∀ t : Fin grid0.N, _)
theorem idx_facts_2 : ∀ t : Fin cfg0.N, win0_2.index t (0 : Fin 5) = (pb t).val ∧ win0_2.index t (1 : Fin 5) = (pf t).val
    ∧ win0_2.index t (2 : Fin 5) = (pg t).val ∧ win0_2.index t (3 : Fin 5) = 0 ∧ win0_2.index t (4 : Fin 5) = 0 :=
  (by decide +kernel : ∀ t : Fin grid0.N, _)
theorem idx_facts_3 : ∀ t : Fin cfg0.N, win0_3.index t (0 : Fin 5) = (pb t).val ∧ win0_3.index t (1 : Fin 5) = (pf t).val
    ∧ win0_3.index t (2 : Fin 5) = (pg t).val ∧ win0_3.index t (3 : Fin 5) = 0 ∧ win0_3.index t (4 : Fin 5) = 0 :=
  (by decide +kernel : ∀ t : Fin grid0.N, _)
theorem idx_facts_4 : ∀ t : Fin cfg0.N, win0_4.index t (0 : Fin 5) = (pb t).val ∧ win0_4.index t (1 : Fin 5) = (pf t).val
    ∧ win0_4.index t (2 : Fin 5) = (pg t).val ∧ win0_4.index t (3 : Fin 5) = 0 ∧ win0_4.index t (4 : Fin 5) = 0 :=
  (by decide +kernel : ∀ t : Fin grid0.N, _)
theorem idx_facts_5 : ∀ t : Fin cfg0.N, win0_5.index t (0 : Fin 5) = (pb t).val ∧ win0_5.index t (1 : Fin 5) = (pf t).val
    ∧ win0_5.index t (2 : Fin 5) = (pg t).val ∧ win0_5.index t (3 : Fin 5) = 0 ∧ win0_5.index t (4 : Fin 5) = 0 :=
  (by decide +kernel : ∀ t : Fin grid0.N, _)
theorem idx_facts_6 : ∀ t : Fin cfg0.N, win0_6.index t (0 : Fin 5) = (pb t).val ∧ win0_6.index t (1 : Fin 5) = (pf t).val
    ∧ win0_6.index t (2 : Fin 5) = (pg t).val ∧ win0_6.index t (3 : Fin 5) = 0 ∧ win0_6.index t (4 : Fin 5) = 0 :=
  (by decide +kernel : ∀ t : Fin grid0.N, _)
theorem idx_facts_7 : ∀ t : Fin cfg0.N, win0_7.index t (0 : Fin 5) = (pb t).val ∧ win0_7.index t (1 : Fin 5) = (pf t).val
    ∧ win0_7.index t (2 : Fin 5) = (pg t).val ∧ win0_7.index t (3 : Fin 5) = 0 ∧ win0_7.index t (4 : Fin 5) = 0 :=
  (by decide +kernel : ∀ t : Fin grid0.N, _)
theorem idx_facts_8 : ∀ t : Fin cfg0.N, win0_8.index t (0 : Fin 5) = (pb t).val ∧ win0_8.index t (1 : Fin 5) = (pf t).val
    ∧ win0_8.index t (2 : Fin 5) = (pg t).val ∧ win0_8.index t (3 : Fin 5) = 0 ∧ win0_8.index t (4 : Fin 5) = 0 :=
  (by decide +kernel : ∀ t : Fin grid0.N, _)
theorem idx_facts_9 : ∀ t : Fin cfg0.N, win0_9.index t (0 : Fin 5) = (pb t).val ∧ win0_9.index t (1 : Fin 5) = (pf t).val
    ∧ win0_9.index t (2 : Fin 5) = (pg t).val ∧ win0_9.index t (3 : Fin 5) = 0 ∧ win0_9.index t (4 : Fin 5) = 0 :=
  (by decide +kernel : ∀ t : Fin grid0.N, _)

/-! ## The input blocks -/

/-- Window 0's block at a point, without its two unit axes, is the point's block of the array the region finds. -/
theorem blk_x (c : Dev nD) (t : Fin cfg0.N) :
    shapeCast S32x128x128 (iblk m c 0 t) shapeCasts_S1x1x32x128x128_S32x128x128
      = blk (h := 128) (w := 128) (V m c main_arg0) (pb t) (pf t) (pg t) := by
  funext i
  obtain ⟨k, r, q, rfl⟩ : ∃ (k : Fin 32) (r : Fin 128) (q : Fin 128), i = ix3 k r q := ⟨i 0, i 1, i 2, eq_ix3 i⟩
  obtain ⟨e0, e1, e2, e3, e4⟩ := idx_facts_0 t
  have h2 : (pg t).val < 2 := (pg t).isLt
  have hk : 32 * (pg t).val + k.val < 64 := by omega
  refine (cast_11abc_abc (iblk m c 0 t) _ k r q).trans ?_
  show V m c main_arg0 (((cfg0.win 0).blk t).view.emb (ix5 (0 : Fin 1) (0 : Fin 1) k r q)) = V m c main_arg0 (ix5 (pb t) (pf t) ⟨32 * (pg t).val + k.val, hk⟩ r q)
  refine congrArg _ ?_
  funext a; apply Fin.ext
  match a with
  | ⟨0, _⟩ => show win0_0.index t (0 : Fin 5) * 1 + 1 * 0 = (pb t).val; omega
  | ⟨1, _⟩ => show win0_0.index t (1 : Fin 5) * 1 + 1 * 0 = (pf t).val; omega
  | ⟨2, _⟩ => show win0_0.index t (2 : Fin 5) * 32 + 1 * k.val = 32 * (pg t).val + k.val; omega
  | ⟨3, _⟩ => show win0_0.index t (3 : Fin 5) * 128 + 1 * r.val = r.val; omega
  | ⟨4, _⟩ => show win0_0.index t (4 : Fin 5) * 128 + 1 * q.val = q.val; omega

/-- Window 1's block at a point, without its two unit axes, is the point's block of the array the region finds. -/
theorem blk_top (c : Dev nD) (t : Fin cfg0.N) :
    shapeCast S32x2x128 (iblk m c 1 t) shapeCasts_S1x1x32x2x128_S32x2x128
      = blk (h := 2) (w := 128) (V m c main_v29) (pb t) (pf t) (pg t) := by
  funext i
  obtain ⟨k, r, q, rfl⟩ : ∃ (k : Fin 32) (r : Fin 2) (q : Fin 128), i = ix3 k r q := ⟨i 0, i 1, i 2, eq_ix3 i⟩
  obtain ⟨e0, e1, e2, e3, e4⟩ := idx_facts_1 t
  have h2 : (pg t).val < 2 := (pg t).isLt
  have hk : 32 * (pg t).val + k.val < 64 := by omega
  refine (cast_11abc_abc (iblk m c 1 t) _ k r q).trans ?_
  show V m c main_v29 (((cfg0.win 1).blk t).view.emb (ix5 (0 : Fin 1) (0 : Fin 1) k r q)) = V m c main_v29 (ix5 (pb t) (pf t) ⟨32 * (pg t).val + k.val, hk⟩ r q)
  refine congrArg _ ?_
  funext a; apply Fin.ext
  match a with
  | ⟨0, _⟩ => show win0_1.index t (0 : Fin 5) * 1 + 1 * 0 = (pb t).val; omega
  | ⟨1, _⟩ => show win0_1.index t (1 : Fin 5) * 1 + 1 * 0 = (pf t).val; omega
  | ⟨2, _⟩ => show win0_1.index t (2 : Fin 5) * 32 + 1 * k.val = 32 * (pg t).val + k.val; omega
  | ⟨3, _⟩ => show win0_1.index t (3 : Fin 5) * 2 + 1 * r.val = r.val; omega
  | ⟨4, _⟩ => show win0_1.index t (4 : Fin 5) * 128 + 1 * q.val = q.val; omega

/-- Window 2's block at a point, without its two unit axes, is the point's block of the array the region finds. -/
theorem blk_bot (c : Dev nD) (t : Fin cfg0.N) :
    shapeCast S32x2x128 (iblk m c 2 t) shapeCasts_S1x1x32x2x128_S32x2x128
      = blk (h := 2) (w := 128) (V m c main_v47) (pb t) (pf t) (pg t) := by
  funext i
  obtain ⟨k, r, q, rfl⟩ : ∃ (k : Fin 32) (r : Fin 2) (q : Fin 128), i = ix3 k r q := ⟨i 0, i 1, i 2, eq_ix3 i⟩
  obtain ⟨e0, e1, e2, e3, e4⟩ := idx_facts_2 t
  have h2 : (pg t).val < 2 := (pg t).isLt
  have hk : 32 * (pg t).val + k.val < 64 := by omega
  refine (cast_11abc_abc (iblk m c 2 t) _ k r q).trans ?_
  show V m c main_v47 (((cfg0.win 2).blk t).view.emb (ix5 (0 : Fin 1) (0 : Fin 1) k r q)) = V m c main_v47 (ix5 (pb t) (pf t) ⟨32 * (pg t).val + k.val, hk⟩ r q)
  refine congrArg _ ?_
  funext a; apply Fin.ext
  match a with
  | ⟨0, _⟩ => show win0_2.index t (0 : Fin 5) * 1 + 1 * 0 = (pb t).val; omega
  | ⟨1, _⟩ => show win0_2.index t (1 : Fin 5) * 1 + 1 * 0 = (pf t).val; omega
  | ⟨2, _⟩ => show win0_2.index t (2 : Fin 5) * 32 + 1 * k.val = 32 * (pg t).val + k.val; omega
  | ⟨3, _⟩ => show win0_2.index t (3 : Fin 5) * 2 + 1 * r.val = r.val; omega
  | ⟨4, _⟩ => show win0_2.index t (4 : Fin 5) * 128 + 1 * q.val = q.val; omega

/-- Window 3's block at a point, without its two unit axes, is the point's block of the array the region finds. -/
theorem blk_lft (c : Dev nD) (t : Fin cfg0.N) :
    shapeCast S32x128x2 (iblk m c 3 t) shapeCasts_S1x1x32x128x2_S32x128x2
      = blk (h := 128) (w := 2) (V m c main_v63) (pb t) (pf t) (pg t) := by
  funext i
  obtain ⟨k, r, q, rfl⟩ : ∃ (k : Fin 32) (r : Fin 128) (q : Fin 2), i = ix3 k r q := ⟨i 0, i 1, i 2, eq_ix3 i⟩
  obtain ⟨e0, e1, e2, e3, e4⟩ := idx_facts_3 t
  have h2 : (pg t).val < 2 := (pg t).isLt
  have hk : 32 * (pg t).val + k.val < 64 := by omega
  refine (cast_11abc_abc (iblk m c 3 t) _ k r q).trans ?_
  show V m c main_v63 (((cfg0.win 3).blk t).view.emb (ix5 (0 : Fin 1) (0 : Fin 1) k r q)) = V m c main_v63 (ix5 (pb t) (pf t) ⟨32 * (pg t).val + k.val, hk⟩ r q)
  refine congrArg _ ?_
  funext a; apply Fin.ext
  match a with
  | ⟨0, _⟩ => show win0_3.index t (0 : Fin 5) * 1 + 1 * 0 = (pb t).val; omega
  | ⟨1, _⟩ => show win0_3.index t (1 : Fin 5) * 1 + 1 * 0 = (pf t).val; omega
  | ⟨2, _⟩ => show win0_3.index t (2 : Fin 5) * 32 + 1 * k.val = 32 * (pg t).val + k.val; omega
  | ⟨3, _⟩ => show win0_3.index t (3 : Fin 5) * 128 + 1 * r.val = r.val; omega
  | ⟨4, _⟩ => show win0_3.index t (4 : Fin 5) * 2 + 1 * q.val = q.val; omega

/-- Window 4's block at a point, without its two unit axes, is the point's block of the array the region finds. -/
theorem blk_rgt (c : Dev nD) (t : Fin cfg0.N) :
    shapeCast S32x128x2 (iblk m c 4 t) shapeCasts_S1x1x32x128x2_S32x128x2
      = blk (h := 128) (w := 2) (V m c main_v79) (pb t) (pf t) (pg t) := by
  funext i
  obtain ⟨k, r, q, rfl⟩ : ∃ (k : Fin 32) (r : Fin 128) (q : Fin 2), i = ix3 k r q := ⟨i 0, i 1, i 2, eq_ix3 i⟩
  obtain ⟨e0, e1, e2, e3, e4⟩ := idx_facts_4 t
  have h2 : (pg t).val < 2 := (pg t).isLt
  have hk : 32 * (pg t).val + k.val < 64 := by omega
  refine (cast_11abc_abc (iblk m c 4 t) _ k r q).trans ?_
  show V m c main_v79 (((cfg0.win 4).blk t).view.emb (ix5 (0 : Fin 1) (0 : Fin 1) k r q)) = V m c main_v79 (ix5 (pb t) (pf t) ⟨32 * (pg t).val + k.val, hk⟩ r q)
  refine congrArg _ ?_
  funext a; apply Fin.ext
  match a with
  | ⟨0, _⟩ => show win0_4.index t (0 : Fin 5) * 1 + 1 * 0 = (pb t).val; omega
  | ⟨1, _⟩ => show win0_4.index t (1 : Fin 5) * 1 + 1 * 0 = (pf t).val; omega
  | ⟨2, _⟩ => show win0_4.index t (2 : Fin 5) * 32 + 1 * k.val = 32 * (pg t).val + k.val; omega
  | ⟨3, _⟩ => show win0_4.index t (3 : Fin 5) * 128 + 1 * r.val = r.val; omega
  | ⟨4, _⟩ => show win0_4.index t (4 : Fin 5) * 2 + 1 * q.val = q.val; omega

/-- Window 5's block at a point, without its two unit axes, is the point's block of the array the region finds. -/
theorem blk_tl (c : Dev nD) (t : Fin cfg0.N) :
    shapeCast S32x2x2 (iblk m c 5 t) shapeCasts_S1x1x32x2x2_S32x2x2
      = blk (h := 2) (w := 2) (V m c main_v83) (pb t) (pf t) (pg t) := by
  funext i
  obtain ⟨k, r, q, rfl⟩ : ∃ (k : Fin 32) (r : Fin 2) (q : Fin 2), i = ix3 k r q := ⟨i 0, i 1, i 2, eq_ix3 i⟩
  obtain ⟨e0, e1, e2, e3, e4⟩ := idx_facts_5 t
  have h2 : (pg t).val < 2 := (pg t).isLt
  have hk : 32 * (pg t).val + k.val < 64 := by omega
  refine (cast_11abc_abc (iblk m c 5 t) _ k r q).trans ?_
  show V m c main_v83 (((cfg0.win 5).blk t).view.emb (ix5 (0 : Fin 1) (0 : Fin 1) k r q)) = V m c main_v83 (ix5 (pb t) (pf t) ⟨32 * (pg t).val + k.val, hk⟩ r q)
  refine congrArg _ ?_
  funext a; apply Fin.ext
  match a with
  | ⟨0, _⟩ => show win0_5.index t (0 : Fin 5) * 1 + 1 * 0 = (pb t).val; omega
  | ⟨1, _⟩ => show win0_5.index t (1 : Fin 5) * 1 + 1 * 0 = (pf t).val; omega
  | ⟨2, _⟩ => show win0_5.index t (2 : Fin 5) * 32 + 1 * k.val = 32 * (pg t).val + k.val; omega
  | ⟨3, _⟩ => show win0_5.index t (3 : Fin 5) * 2 + 1 * r.val = r.val; omega
  | ⟨4, _⟩ => show win0_5.index t (4 : Fin 5) * 2 + 1 * q.val = q.val; omega

/-- Window 6's block at a point, without its two unit axes, is the point's block of the array the region finds. -/
theorem blk_tr (c : Dev nD) (t : Fin cfg0.N) :
    shapeCast S32x2x2 (iblk m c 6 t) shapeCasts_S1x1x32x2x2_S32x2x2
      = blk (h := 2) (w := 2) (V m c main_v87) (pb t) (pf t) (pg t) := by
  funext i
  obtain ⟨k, r, q, rfl⟩ : ∃ (k : Fin 32) (r : Fin 2) (q : Fin 2), i = ix3 k r q := ⟨i 0, i 1, i 2, eq_ix3 i⟩
  obtain ⟨e0, e1, e2, e3, e4⟩ := idx_facts_6 t
  have h2 : (pg t).val < 2 := (pg t).isLt
  have hk : 32 * (pg t).val + k.val < 64 := by omega
  refine (cast_11abc_abc (iblk m c 6 t) _ k r q).trans ?_
  show V m c main_v87 (((cfg0.win 6).blk t).view.emb (ix5 (0 : Fin 1) (0 : Fin 1) k r q)) = V m c main_v87 (ix5 (pb t) (pf t) ⟨32 * (pg t).val + k.val, hk⟩ r q)
  refine congrArg _ ?_
  funext a; apply Fin.ext
  match a with
  | ⟨0, _⟩ => show win0_6.index t (0 : Fin 5) * 1 + 1 * 0 = (pb t).val; omega
  | ⟨1, _⟩ => show win0_6.index t (1 : Fin 5) * 1 + 1 * 0 = (pf t).val; omega
  | ⟨2, _⟩ => show win0_6.index t (2 : Fin 5) * 32 + 1 * k.val = 32 * (pg t).val + k.val; omega
  | ⟨3, _⟩ => show win0_6.index t (3 : Fin 5) * 2 + 1 * r.val = r.val; omega
  | ⟨4, _⟩ => show win0_6.index t (4 : Fin 5) * 2 + 1 * q.val = q.val; omega

/-- Window 7's block at a point, without its two unit axes, is the point's block of the array the region finds. -/
theorem blk_dl (c : Dev nD) (t : Fin cfg0.N) :
    shapeCast S32x2x2 (iblk m c 7 t) shapeCasts_S1x1x32x2x2_S32x2x2
      = blk (h := 2) (w := 2) (V m c main_v91) (pb t) (pf t) (pg t) := by
  funext i
  obtain ⟨k, r, q, rfl⟩ : ∃ (k : Fin 32) (r : Fin 2) (q : Fin 2), i = ix3 k r q := ⟨i 0, i 1, i 2, eq_ix3 i⟩
  obtain ⟨e0, e1, e2, e3, e4⟩ := idx_facts_7 t
  have h2 : (pg t).val < 2 := (pg t).isLt
  have hk : 32 * (pg t).val + k.val < 64 := by omega
  refine (cast_11abc_abc (iblk m c 7 t) _ k r q).trans ?_
  show V m c main_v91 (((cfg0.win 7).blk t).view.emb (ix5 (0 : Fin 1) (0 : Fin 1) k r q)) = V m c main_v91 (ix5 (pb t) (pf t) ⟨32 * (pg t).val + k.val, hk⟩ r q)
  refine congrArg _ ?_
  funext a; apply Fin.ext
  match a with
  | ⟨0, _⟩ => show win0_7.index t (0 : Fin 5) * 1 + 1 * 0 = (pb t).val; omega
  | ⟨1, _⟩ => show win0_7.index t (1 : Fin 5) * 1 + 1 * 0 = (pf t).val; omega
  | ⟨2, _⟩ => show win0_7.index t (2 : Fin 5) * 32 + 1 * k.val = 32 * (pg t).val + k.val; omega
  | ⟨3, _⟩ => show win0_7.index t (3 : Fin 5) * 2 + 1 * r.val = r.val; omega
  | ⟨4, _⟩ => show win0_7.index t (4 : Fin 5) * 2 + 1 * q.val = q.val; omega

/-- Window 8's block at a point, without its two unit axes, is the point's block of the array the region finds. -/
theorem blk_dr (c : Dev nD) (t : Fin cfg0.N) :
    shapeCast S32x2x2 (iblk m c 8 t) shapeCasts_S1x1x32x2x2_S32x2x2
      = blk (h := 2) (w := 2) (V m c main_v95) (pb t) (pf t) (pg t) := by
  funext i
  obtain ⟨k, r, q, rfl⟩ : ∃ (k : Fin 32) (r : Fin 2) (q : Fin 2), i = ix3 k r q := ⟨i 0, i 1, i 2, eq_ix3 i⟩
  obtain ⟨e0, e1, e2, e3, e4⟩ := idx_facts_8 t
  have h2 : (pg t).val < 2 := (pg t).isLt
  have hk : 32 * (pg t).val + k.val < 64 := by omega
  refine (cast_11abc_abc (iblk m c 8 t) _ k r q).trans ?_
  show V m c main_v95 (((cfg0.win 8).blk t).view.emb (ix5 (0 : Fin 1) (0 : Fin 1) k r q)) = V m c main_v95 (ix5 (pb t) (pf t) ⟨32 * (pg t).val + k.val, hk⟩ r q)
  refine congrArg _ ?_
  funext a; apply Fin.ext
  match a with
  | ⟨0, _⟩ => show win0_8.index t (0 : Fin 5) * 1 + 1 * 0 = (pb t).val; omega
  | ⟨1, _⟩ => show win0_8.index t (1 : Fin 5) * 1 + 1 * 0 = (pf t).val; omega
  | ⟨2, _⟩ => show win0_8.index t (2 : Fin 5) * 32 + 1 * k.val = 32 * (pg t).val + k.val; omega
  | ⟨3, _⟩ => show win0_8.index t (3 : Fin 5) * 2 + 1 * r.val = r.val; omega
  | ⟨4, _⟩ => show win0_8.index t (4 : Fin 5) * 2 + 1 * q.val = q.val; omega

/-! ## The output block -/

/-- A `[32, 132, 132]` block of any array `G`, with two unit axes in front, is what the output window reads of `G` at the point. -/
theorem block_eq (G : S4x6x64x132x132.Idx → Elt F .f32) (c : Dev nD) (t : Fin cfg0.N) :
    shapeCast S1x1x32x132x132 (blk (h := 132) (w := 132) G (pb t) (pf t) (pg t)) shapeCasts_S32x132x132_S1x1x32x132x132
      = ((cfg0.win 9).blk t).view.read (Elt F) G := by
  funext y
  obtain ⟨u, v, k, r, q, rfl⟩ : ∃ (u v : Fin 1) (k : Fin 32) (r : Fin 132) (q : Fin 132), y = ix5 u v k r q := ⟨y 0, y 1, y 2, y 3, y 4, eq_ix5 y⟩
  obtain ⟨e0, e1, e2, e3, e4⟩ := idx_facts_9 t
  have hu : u.val = 0 := by omega
  have hv : v.val = 0 := by omega
  have h2 : (pg t).val < 2 := (pg t).isLt
  have hk : 32 * (pg t).val + k.val < 64 := by omega
  refine (cast_abc_11abc _ _ u v k r q).trans ?_
  show G (ix5 (pb t) (pf t) ⟨32 * (pg t).val + k.val, hk⟩ r q) = G (((cfg0.win 9).blk t).view.emb (ix5 u v k r q))
  refine congrArg _ ?_
  funext a; apply Fin.ext
  match a with
  | ⟨0, _⟩ => show (pb t).val = win0_9.index t (0 : Fin 5) * 1 + 1 * u.val; omega
  | ⟨1, _⟩ => show (pf t).val = win0_9.index t (1 : Fin 5) * 1 + 1 * v.val; omega
  | ⟨2, _⟩ => show 32 * (pg t).val + k.val = win0_9.index t (2 : Fin 5) * 32 + 1 * k.val; omega
  | ⟨3, _⟩ => show r.val = win0_9.index t (3 : Fin 5) * 132 + 1 * r.val; omega
  | ⟨4, _⟩ => show q.val = win0_9.index t (4 : Fin 5) * 132 + 1 * q.val; omega

set_option maxHeartbeats 4000000 in
/-- What point `t` writes back is the point's block of the padded cube. -/
theorem flushed_eq (c : Dev nD) (t : Fin cfg0.N) :
    (dats m 0 c).flushed 9 t = ((cfg0.win 9).blk t).view.read (Elt F) (cube m c) := by
  show (cfg0.win 9).cut (grid0.coords t) ((dats m 0 c).after 9 t) = _
  rw [after0_9]
  unfold out0_9
  rw [View.canon_unit_zero hz]
  simp only [View.ld_unit_zero (S := S1x1x32x128x128) hz, View.ld_unit_zero (S := S1x1x32x2x128) hz,
    View.ld_unit_zero (S := S1x1x32x128x2) hz, View.ld_unit_zero (S := S1x1x32x2x2) hz]
  unfold k0_pay1 k0_pay2 k0_pay3 k0_pay4
  dsimp only
  rw [blk_x m c t, blk_top m c t, blk_bot m c t, blk_lft m c t, blk_rgt m c t, blk_tl m c t, blk_tr m c t, blk_dl m c t, blk_dr m c t]
  rw [blk_joinRows (V m c main_v83) (V m c main_v63) (V m c main_v91) (show Shape.Concatenates [(⟨5, ![4, 6, 64, 2, 2]⟩ : Shape), (⟨5, ![4, 6, 64, 128, 2]⟩ : Shape), (⟨5, ![4, 6, 64, 2, 2]⟩ : Shape)] (⟨5, ![4, 6, 64, 132, 2]⟩ : Shape) 3 by decide) (pb t) (pf t) (pg t) concatenates_S32x2x2_S32x128x2_S32x2x2_S32x132x2_d1,
    blk_joinRows (V m c main_v29) (V m c main_arg0) (V m c main_v47) (show Shape.Concatenates [(⟨5, ![4, 6, 64, 2, 128]⟩ : Shape), (⟨5, ![4, 6, 64, 128, 128]⟩ : Shape), (⟨5, ![4, 6, 64, 2, 128]⟩ : Shape)] (⟨5, ![4, 6, 64, 132, 128]⟩ : Shape) 3 by decide) (pb t) (pf t) (pg t) concatenates_S32x2x128_S32x128x128_S32x2x128_S32x132x128_d1,
    blk_joinRows (V m c main_v87) (V m c main_v79) (V m c main_v95) (show Shape.Concatenates [(⟨5, ![4, 6, 64, 2, 2]⟩ : Shape), (⟨5, ![4, 6, 64, 128, 2]⟩ : Shape), (⟨5, ![4, 6, 64, 2, 2]⟩ : Shape)] (⟨5, ![4, 6, 64, 132, 2]⟩ : Shape) 3 by decide) (pb t) (pf t) (pg t) concatenates_S32x2x2_S32x128x2_S32x2x2_S32x132x2_d1]
  rw [blk_joinCols _ _ _ (show Shape.Concatenates [(⟨5, ![4, 6, 64, 132, 2]⟩ : Shape), (⟨5, ![4, 6, 64, 132, 128]⟩ : Shape), (⟨5, ![4, 6, 64, 132, 2]⟩ : Shape)] (⟨5, ![4, 6, 64, 132, 132]⟩ : Shape) 4 by decide) (pb t) (pf t) (pg t) concatenates_S32x132x2_S32x132x128_S32x132x2_S32x132x132_d2]
  exact block_eq _ c t

/-! ## The blocks tile the result array -/

theorem mem_blk (t : Fin cfg0.N) (i : S4x6x64x132x132.Idx) :
    i ∈ ((cfg0.win 9).blk t).view.set ↔ ∀ a : Fin 5, win0_9.index t a * S1x1x32x132x132.size a ≤ (i a).val ∧ (i a).val < win0_9.index t a * S1x1x32x132x132.size a + S1x1x32x132x132.size a := by
  show i ∈ ((View.whole main_v96).slice (win0_9.rect t)).set ↔ _
  rw [View.set_slice_whole, Rect.mem_set_unit]
  exact Iff.rfl

/-- Every (batch entry, face, channel half) is some point's block index. -/
theorem idx_onto : ∀ (q0 : Fin 4) (q1 : Fin 6) (q2 : Fin 2), ∃ t : Fin cfg0.N, win0_9.index t = ![q0.val, q1.val, q2.val, 0, 0] :=
  (by decide +kernel : ∀ (q0 : Fin 4) (q1 : Fin 6) (q2 : Fin 2), ∃ t : Fin grid0.N, win0_9.index t = ![q0.val, q1.val, q2.val, 0, 0])

/-- Every index of the result array lies in the block of the point of its batch entry, face and channel half. -/
theorem cover (i : S4x6x64x132x132.Idx) : ∃ t : Fin cfg0.N, (cfg0.win 9).flush t = true ∧ i ∈ ((cfg0.win 9).blk t).view.set := by
  have h0 : (i 0).val < 4 := (i 0).isLt
  have h1 : (i 1).val < 6 := (i 1).isLt
  have h2 : (i 2).val < 64 := (i 2).isLt
  have h3 : (i 3).val < 132 := (i 3).isLt
  have h4 : (i 4).val < 132 := (i 4).isLt
  obtain ⟨t, ht⟩ := idx_onto ⟨(i 0).val, h0⟩ ⟨(i 1).val, h1⟩ ⟨(i 2).val / 32, by omega⟩
  have q0 : win0_9.index t (0 : Fin 5) = (i 0).val := congrFun ht 0
  have q1 : win0_9.index t (1 : Fin 5) = (i 1).val := congrFun ht 1
  have q2 : win0_9.index t (2 : Fin 5) = (i 2).val / 32 := congrFun ht 2
  have q3 : win0_9.index t (3 : Fin 5) = 0 := congrFun ht 3
  have q4 : win0_9.index t (4 : Fin 5) = 0 := congrFun ht 4
  refine ⟨t, flush0_9 t, ?_⟩
  rw [mem_blk]
  intro a
  match a with
  | ⟨0, _⟩ => show win0_9.index t (0 : Fin 5) * 1 ≤ (i 0).val ∧ (i 0).val < win0_9.index t (0 : Fin 5) * 1 + 1; omega
  | ⟨1, _⟩ => show win0_9.index t (1 : Fin 5) * 1 ≤ (i 1).val ∧ (i 1).val < win0_9.index t (1 : Fin 5) * 1 + 1; omega
  | ⟨2, _⟩ => show win0_9.index t (2 : Fin 5) * 32 ≤ (i 2).val ∧ (i 2).val < win0_9.index t (2 : Fin 5) * 32 + 32; omega
  | ⟨3, _⟩ => show win0_9.index t (3 : Fin 5) * 132 ≤ (i 3).val ∧ (i 3).val < win0_9.index t (3 : Fin 5) * 132 + 132; omega
  | ⟨4, _⟩ => show win0_9.index t (4 : Fin 5) * 132 ≤ (i 4).val ∧ (i 4).val < win0_9.index t (4 : Fin 5) * 132 + 132; omega

/-! ## The result array after the run -/

theorem final (c : Dev nD) : (dats m 0 c).arrAt 9 cfg0.N = cube m c :=
  (dats m 0 c).arrAt_eq_of_cover 9 _ (fun t _ => flushed_eq m c t) cover

/-- Every weakly fair execution of the kernel's @main terminates with the result array at the padded cube over the
    arrays the region found, and the argument unchanged. -/
theorem run : θ_run defs (onTc (τ := τ) (main (F := F))) ⟨m, fun _ => 0, ρ⟩ fun r => ∀ c : Dev nD,
      r.2.mem ((c : Thread nD τ).loc main_v96) = cube m c
      ∧ r.2.mem ((c : Thread nD τ).loc main_arg0) = m ((c : Thread nD τ).loc main_arg0) :=
  (θ_run defs _ _).mono (fun r h c => ⟨((h c).1 9).trans (final m c),
      ((h c).1 0).trans (((dats m 0 c).arrAt_in 0 rfl _).trans ((A_eq m c 0).trans (V_main_arg0 m c)))⟩)
    (run_main m ρ)

end Cert.KernelIdeal.Val

end
-- ==== Proof.Bridge.lean ====
/-
  The kernel's padded cube is the reference's result.

  The kernel's host operations compute the eight strip and corner arrays by the same operations, in the same order, as
  the reference's. Reading the fold over the kernel's line of host operations at the nine arrays the region stages
  (each six-way join over the faces read with its operands as separate arguments, so that the reading goes on inside
  them) turns the padded cube over those arrays into the composed operations of the argument, and that is, term for
  term, what the reference's run leaves in its result buffer.
-/
import proofs.«164980_j69243462746691_1_alg».proof.Proof.KValue
import proofs.«164980_j69243462746691_1_alg».proof.Proof.LibNary
import proofs.«164980_j69243462746691_1_alg».proof.Proof.RefRun

set_option maxRecDepth 16384

noncomputable section

namespace Cert.KernelIdeal.Bridge

open Cert.KernelIdeal Cert.KernelIdeal.Gen Cert.KernelIdeal.Fr Cert.KernelIdeal.Val
open Idealize.ShloMosaic Idealize.ShloMosaic.TcCoe Idealize.SL.Sem

variable {F : FTy → Type} [FloatOps F]

/-! ## The four joins over the faces: the result buffer holds the join of the six operand buffers -/

theorem join_top (W : Valuation τ sig (Elt F)) (hxs hy) :
    (StableHlo.nary (τ := τ) ![main_v23, main_v24, main_v25, main_v26, main_v27, main_v28] main_v29 (fun u => concatenate S4x6x64x2x128 1 [⟨S4x1x64x2x128, u 0⟩, ⟨S4x1x64x2x128, u 1⟩, ⟨S4x1x64x2x128, u 2⟩, ⟨S4x1x64x2x128, u 3⟩, ⟨S4x1x64x2x128, u 4⟩, ⟨S4x1x64x2x128, u 5⟩] concatenates_S4x1x64x2x128_S4x1x64x2x128_S4x1x64x2x128_S4x1x64x2x128_S4x1x64x2x128_S4x1x64x2x128_S4x6x64x2x128_d1) hxs hy).result W (no_index (Proc.devRef .tc main_v29))
      = join6 S4x6x64x2x128 1 S4x1x64x2x128 (W (Proc.devRef .tc main_v23)) (W (Proc.devRef .tc main_v24)) (W (Proc.devRef .tc main_v25)) (W (Proc.devRef .tc main_v26)) (W (Proc.devRef .tc main_v27)) (W (Proc.devRef .tc main_v28)) concatenates_S4x1x64x2x128_S4x1x64x2x128_S4x1x64x2x128_S4x1x64x2x128_S4x1x64x2x128_S4x1x64x2x128_S4x6x64x2x128_d1 :=
  (StableHlo.nary_result _ _ _ hxs hy W).trans rfl

theorem join_bot (W : Valuation τ sig (Elt F)) (hxs hy) :
    (StableHlo.nary (τ := τ) ![main_v41, main_v42, main_v43, main_v44, main_v45, main_v46] main_v47 (fun u => concatenate S4x6x64x2x128 1 [⟨S4x1x64x2x128, u 0⟩, ⟨S4x1x64x2x128, u 1⟩, ⟨S4x1x64x2x128, u 2⟩, ⟨S4x1x64x2x128, u 3⟩, ⟨S4x1x64x2x128, u 4⟩, ⟨S4x1x64x2x128, u 5⟩] concatenates_S4x1x64x2x128_S4x1x64x2x128_S4x1x64x2x128_S4x1x64x2x128_S4x1x64x2x128_S4x1x64x2x128_S4x6x64x2x128_d1) hxs hy).result W (no_index (Proc.devRef .tc main_v47))
      = join6 S4x6x64x2x128 1 S4x1x64x2x128 (W (Proc.devRef .tc main_v41)) (W (Proc.devRef .tc main_v42)) (W (Proc.devRef .tc main_v43)) (W (Proc.devRef .tc main_v44)) (W (Proc.devRef .tc main_v45)) (W (Proc.devRef .tc main_v46)) concatenates_S4x1x64x2x128_S4x1x64x2x128_S4x1x64x2x128_S4x1x64x2x128_S4x1x64x2x128_S4x1x64x2x128_S4x6x64x2x128_d1 :=
  (StableHlo.nary_result _ _ _ hxs hy W).trans rfl

theorem join_lft (W : Valuation τ sig (Elt F)) (hxs hy) :
    (StableHlo.nary (τ := τ) ![main_v57, main_v58, main_v59, main_v60, main_v61, main_v62] main_v63 (fun u => concatenate S4x6x64x128x2 1 [⟨S4x1x64x128x2, u 0⟩, ⟨S4x1x64x128x2, u 1⟩, ⟨S4x1x64x128x2, u 2⟩, ⟨S4x1x64x128x2, u 3⟩, ⟨S4x1x64x128x2, u 4⟩, ⟨S4x1x64x128x2, u 5⟩] concatenates_S4x1x64x128x2_S4x1x64x128x2_S4x1x64x128x2_S4x1x64x128x2_S4x1x64x128x2_S4x1x64x128x2_S4x6x64x128x2_d1) hxs hy).result W (no_index (Proc.devRef .tc main_v63))
      = join6 S4x6x64x128x2 1 S4x1x64x128x2 (W (Proc.devRef .tc main_v57)) (W (Proc.devRef .tc main_v58)) (W (Proc.devRef .tc main_v59)) (W (Proc.devRef .tc main_v60)) (W (Proc.devRef .tc main_v61)) (W (Proc.devRef .tc main_v62)) concatenates_S4x1x64x128x2_S4x1x64x128x2_S4x1x64x128x2_S4x1x64x128x2_S4x1x64x128x2_S4x1x64x128x2_S4x6x64x128x2_d1 :=
  (StableHlo.nary_result _ _ _ hxs hy W).trans rfl

theorem join_rgt (W : Valuation τ sig (Elt F)) (hxs hy) :
    (StableHlo.nary (τ := τ) ![main_v73, main_v74, main_v75, main_v76, main_v77, main_v78] main_v79 (fun u => concatenate S4x6x64x128x2 1 [⟨S4x1x64x128x2, u 0⟩, ⟨S4x1x64x128x2, u 1⟩, ⟨S4x1x64x128x2, u 2⟩, ⟨S4x1x64x128x2, u 3⟩, ⟨S4x1x64x128x2, u 4⟩, ⟨S4x1x64x128x2, u 5⟩] concatenates_S4x1x64x128x2_S4x1x64x128x2_S4x1x64x128x2_S4x1x64x128x2_S4x1x64x128x2_S4x1x64x128x2_S4x6x64x128x2_d1) hxs hy).result W (no_index (Proc.devRef .tc main_v79))
      = join6 S4x6x64x128x2 1 S4x1x64x128x2 (W (Proc.devRef .tc main_v73)) (W (Proc.devRef .tc main_v74)) (W (Proc.devRef .tc main_v75)) (W (Proc.devRef .tc main_v76)) (W (Proc.devRef .tc main_v77)) (W (Proc.devRef .tc main_v78)) concatenates_S4x1x64x128x2_S4x1x64x128x2_S4x1x64x128x2_S4x1x64x128x2_S4x1x64x128x2_S4x1x64x128x2_S4x6x64x128x2_d1 :=
  (StableHlo.nary_result _ _ _ hxs hy W).trans rfl

/-! ## The bridge -/

set_option maxHeartbeats 16000000 in
/-- From memories that agree on the argument, the padded cube over the arrays the kernel's region finds is the composed
    term the reference's run ends at. -/
theorem cube_eq (m : (ℓ : Loc nD τ sig) → Buf (Elt F) ℓ) (c : Dev nD)
    (m' : (ℓ : Loc Cert.ReferenceIdeal.nD Cert.ReferenceIdeal.τ Cert.ReferenceIdeal.sig) → Buf (Elt F) ℓ)
    (hag : m' ((c.tc : Thread Cert.ReferenceIdeal.nD Cert.ReferenceIdeal.τ).loc Cert.ReferenceIdeal.main_arg0) = m ((c.tc : Thread nD τ).loc main_arg0)) :
    cube (F := F) m c = Cert.ReferenceIdeal.ValueP.res_main_v99 m' c := by
  unfold cube Cert.ReferenceIdeal.ValueP.res_main_v99
  rw [hag]
  dsimp only [V, hostOps0]
  simp (disch := decide) only [StableHlo.after_cons, StableHlo.after_nil, StableHlo.unary_result', StableHlo.reshape_result', join_top, join_bot, join_lft, join_rgt, StableHlo.unary_result_ne', StableHlo.reshape_result_ne', StableHlo.nary_result_ne']
  rfl

end Cert.KernelIdeal.Bridge

end
-- ==== Proof.lean ====
/-
  The padded cube map: a Pallas assembly of border strips against the reference's joins.

  Both programs take the six faces x[b, f, c, :, :] of a cube map and surround each 128 x 128 face by a two-pixel border
  cut from the neighbouring faces: rows above and below, columns left and right (reversed and transposed as the edges of
  the cube meet), and four corner patches (the end column of the strip above or below, repeated). The twelve strips and
  four patches are computed by the same host operations in both. The reference then joins, over whole arrays, corner,
  side strip, corner along the rows for the left and the right column bands, top strip, face, bottom strip for the
  middle, and the three bands along the columns. The kernel makes the same joins one (batch entry, face, channel half)
  block at a time inside one pipelined region. No arithmetic is done on the values, so the two results are the same
  function of the argument on all extended reals and the precondition is not used:
  - the block of a join of three arrays along an axis the block does not cut is the join of their blocks (Proof/Join.lean);
  - the kernel's output blocks are the blocks of the join of the arrays its region finds, and they tile the result array
    (Proof/KValue.lean); that join is the reference's result (Proof/Bridge.lean);
  - the frames: the kernel's run, at either reading of the floats, from the pipeline's launch with the body's loads and
    its one covering store stepped through (Proof/FrameI.lean, Proof/FrameB.lean); the reference's is its run.
  The idealization rewrote nothing, so `preserves` has nothing to state.
-/
import proofs.«164980_j69243462746691_1_alg».proof.Defs
import proofs.«164980_j69243462746691_1_alg».proof.Proof.Gen.Kernel
import proofs.«164980_j69243462746691_1_alg».proof.Proof.Gen.KernelIdeal
import proofs.«164980_j69243462746691_1_alg».proof.Proof.Gen.ReferenceIdeal
import proofs.«164980_j69243462746691_1_alg».proof.Proof.Gen.Pre_finite_inputs
import proofs.«164980_j69243462746691_1_alg».proof.Proof.RefRun
import proofs.«164980_j69243462746691_1_alg».proof.Proof.FrameB
import proofs.«164980_j69243462746691_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program as printed runs and leaves its argument. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the padded cube of the argument, and the arguments agree. -/
theorem algebraic : Cert.algebraic_KernelIdeal_ReferenceIdeal := by
  intro m ρ m' ρ' _ hagree
  refine ⟨fun c => Cert.KernelIdeal.Val.cube (F := Ideal) m c, Cert.KernelIdeal.Val.run (F := Ideal) m ρ, ?_⟩
  exact (θ_run Cert.ReferenceIdeal.defs _ _).mono
    (fun _ h c => ⟨(h c).1.trans (Cert.KernelIdeal.Bridge.cube_eq m c m' (hagree c)).symm, (h c).2⟩)
    (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
